-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S512x256 : Shape := ⟨2, ![512, 256]⟩
abbrev S50000 : Shape := ⟨1, ![50000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : FVec F S50000x256 .f32) (main_arg1 : FVec F S50000x256 .f32) (main_arg2 : FVec F S512x256 .f32) (main_arg3 : FVec F S512x256 .f32) (main_arg4 : IVec S50000 32) (main_arg5 : IVec S50000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S50000x256 : Shape := ⟨2, ![50000, 256]⟩
abbrev S512x256 : Shape := ⟨2, ![512, 256]⟩
abbrev S50000 : Shape := ⟨1, ![50000]⟩
abbrev S_ : Shape := ⟨0, ![]⟩
abbrev S512 : Shape := ⟨1, ![512]⟩
abbrev S512x1 : Shape := ⟨2, ![512, 1]⟩
abbrev S50000x1 : Shape := ⟨2, ![50000, 1]⟩
abbrev S50176x256 : Shape := ⟨2, ![50176, 256]⟩
abbrev S50176x1 : Shape := ⟨2, ![50176, 1]⟩
abbrev S1x1 : Shape := ⟨2, ![1, 1]⟩
abbrev S256x256 : Shape := ⟨2, ![256, 256]⟩
abbrev S256x1 : Shape := ⟨2, ![256, 1]⟩
abbrev S256 : Shape := ⟨1, ![256]⟩
abbrev S256x512 : Shape := ⟨2, ![256, 512]⟩
abbrev S1 : Shape := ⟨1, ![1]⟩

abbrev nBuf : Space → Nat
  | .hbm => 49
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S512x256, .f32⟩
  | .hbm, ⟨3, _⟩ => ⟨S512x256, .f32⟩
  | .hbm, ⟨4, _⟩ => ⟨S50000, .i32⟩
  | .hbm, ⟨5, _⟩ => ⟨S50000, .i32⟩
  | .hbm, ⟨6, _⟩ => ⟨S512x256, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x256, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512, .f32⟩
  | .hbm, ⟨20, _⟩ => ⟨S512x1, .f32⟩
  | .hbm, ⟨21, _⟩ => ⟨S512x1, .f32⟩
  | .hbm, ⟨22, _⟩ => ⟨S_, .f32⟩
  | .hbm, ⟨23, _⟩ => ⟨S_, .f32⟩
  | .hbm, ⟨24, _⟩ => ⟨S512x1, .f32⟩
  | .hbm, ⟨25, _⟩ => ⟨S512x1, .f32⟩
  | .hbm, ⟨26, _⟩ => ⟨S512x256, .f32⟩
  | .hbm, ⟨27, _⟩ => ⟨S512x256, .f32⟩
  | .hbm, ⟨28, _⟩ => ⟨S50000x1, .i32⟩
  | .hbm, ⟨29, _⟩ => ⟨S50000x1, .i32⟩
  | .hbm, ⟨30, _⟩ => ⟨S_, .i32⟩
  | .hbm, ⟨31, _⟩ => ⟨S_, .f32⟩
  | .hbm, ⟨32, _⟩ => ⟨S50176x256, .f32⟩
  | .hbm, ⟨33, _⟩ => ⟨S_, .i32⟩
  | .hbm, ⟨34, _⟩ => ⟨S_, .f32⟩
  | .hbm, ⟨35, _⟩ => ⟨S50176x256, .f32⟩
  | .hbm, ⟨36, _⟩ => ⟨S_, .i32⟩
  | .hbm, ⟨37, _⟩ => ⟨S_, .i32⟩
  | .hbm, ⟨38, _⟩ => ⟨S50176x1, .i32⟩
  | .hbm, ⟨39, _⟩ => ⟨S_, .i32⟩
  | .hbm, ⟨40, _⟩ => ⟨S_, .i32⟩
  | .hbm, ⟨41, _⟩ => ⟨S50176x1, .i32⟩
  | .hbm, ⟨42, _⟩ => ⟨S1x1, .f32⟩
  | .hbm, ⟨43, _⟩ => ⟨S1x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S512x256, .f32⟩
  | .local _ .vmem, ⟨5, _⟩ => ⟨S512x256, .f32⟩
  | .local _ .vmem, ⟨6, _⟩ => ⟨S256x1, .i32⟩
  | .local _ .vmem, ⟨7, _⟩ => ⟨S256x1, .i32⟩
  | .local _ .vmem, ⟨8, _⟩ => ⟨S256x1, .i32⟩
  | .local _ .vmem, ⟨9, _⟩ => ⟨S256x1, .i32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_call1_v0 : Ref sig .tc := ⟨.hbm, 12, rfl⟩
abbrev main_call1_v1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call2_v0 : Ref sig .tc := ⟨.hbm, 17, rfl⟩
abbrev main_call2_cst : Ref sig .tc := ⟨.hbm, 18, rfl⟩
abbrev main_call2_v1 : Ref sig .tc := ⟨.hbm, 19, rfl⟩
abbrev main_call2_v2 : Ref sig .tc := ⟨.hbm, 20, rfl⟩
abbrev main_v4 : Ref sig .tc := ⟨.hbm, 21, rfl⟩
abbrev main_cst_0 : Ref sig .tc := ⟨.hbm, 22, rfl⟩
abbrev main_call3_v0 : Ref sig .tc := ⟨.hbm, 23, rfl⟩
abbrev main_call3_v1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_call4_v0 : Ref sig .tc := ⟨.hbm, 31, rfl⟩
abbrev main_v10 : Ref sig .tc := ⟨.hbm, 32, rfl⟩
abbrev main_c_1 : Ref sig .tc := ⟨.hbm, 33, rfl⟩
abbrev main_call5_v0 : Ref sig .tc := ⟨.hbm, 34, rfl⟩
abbrev main_v11 : Ref sig .tc := ⟨.hbm, 35, rfl⟩
abbrev main_c_2 : Ref sig .tc := ⟨.hbm, 36, rfl⟩
abbrev main_call6_v0 : Ref sig .tc := ⟨.hbm, 37, rfl⟩
abbrev main_v12 : Ref sig .tc := ⟨.hbm, 38, rfl⟩
abbrev main_c_3 : Ref sig .tc := ⟨.hbm, 39, rfl⟩
abbrev main_call7_v0 : Ref sig .tc := ⟨.hbm, 40, rfl⟩
abbrev main_v13 : Ref sig .tc := ⟨.hbm, 41, rfl⟩
abbrev main_v14_0 : Ref sig .tc := ⟨.hbm, 42, rfl⟩
abbrev main_v14_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![196], ![false]⟩

def k0_cond2 (i : grid0.Coords) : BitVec 1 :=
  let arg0 : BitVec 32 := BitVec.ofNat 32 (i 0).val
  let c195_i32 : BitVec 32 := 195#32
  let v154 : BitVec 1 := Scalar.cmpi .eq arg0 c195_i32
  let v155 : BitVec 32 := Scalar.extui v154
  let c0_i32_53 : BitVec 32 := 0#32
  let v156 : BitVec 1 := Scalar.cmpi .ne v155 c0_i32_53
  v156

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  shapeCasts_S50000_S50000x1 : S50000.ShapeCasts S50000x1
  pads_S50000x256_S50176x256_01760_000 : S50000x256.Pads (![0, 0] : Fin 2 → Nat) ![176, 0] ![0, 0] S50176x256
  pads_S50000x1_S50176x1_01760_000 : S50000x1.Pads (![0, 0] : Fin 2 → Nat) ![176, 0] ![0, 0] S50176x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S256x256_S256 : S256x256.Reduces [1] S256
  shapeCasts_S256_S256x1 : S256.ShapeCasts S256x1
  broadcasts_S256x1_S256x256 : S256x1.Broadcasts S256x256
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x512_d1_w32 : S256x512.Iotas .tc 32 [1]
  broadcasts_S256x1_S256x512 : S256x1.Broadcasts S256x512
  reduces_S256x512_S256 : S256x512.Reduces [1] S256
  reduces_S256x1_S1 : S256x1.Reduces [0] S1
  shapeCasts_S1_S1x1 : S1.ShapeCasts S1x1
  shapeCasts_S1x1_S_ : S1x1.ShapeCasts S_
  dot_S256x256_S256x512_S256x512_1_0_0_1_n_n_wf : DotDims.WF S256x256 S256x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S50176x256.size a
  hwx0_0 : ∀ i : grid0.Coords, EltTy.bits .f32 = 32 ∨ (Rect.block (s := S50176x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S50176x256.size a
  hwx0_1 : ∀ i : grid0.Coords, EltTy.bits .f32 = 32 ∨ (Rect.block (s := S50176x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S50176x1.size a
  hwx0_4 : ∀ i : grid0.Coords, EltTy.bits .i32 = 32 ∨ (Rect.block (s := S50176x1) S256x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S50176x1.size a
  hwx0_5 : ∀ i : grid0.Coords, EltTy.bits .i32 = 32 ∨ (Rect.block (s := S50176x1) S256x1.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf

abbrev win0_0 : Pipeline.Window sig grid0 :=
  Pipeline.Window.ofSpec (Memref.whole main_v10) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S50000x256 : Shape := ⟨2, ![50000, 256]⟩
abbrev S512x256 : Shape := ⟨2, ![512, 256]⟩
abbrev S50000 : Shape := ⟨1, ![50000]⟩
abbrev S50000x1 : Shape := ⟨2, ![50000, 1]⟩
abbrev S1x512 : Shape := ⟨2, ![1, 512]⟩
abbrev S50000x512 : Shape := ⟨2, ![50000, 512]⟩
abbrev S_ : Shape := ⟨0, ![]⟩
abbrev S512 : Shape := ⟨1, ![512]⟩
abbrev S512x1 : Shape := ⟨2, ![512, 1]⟩
abbrev S256x512 : Shape := ⟨2, ![256, 512]⟩

abbrev nBuf : Space → Nat
  | .hbm => 165
  | .vmem => 0
  | .smem => 0
  | _ => 0

abbrev hbmTy0_0 (i : Nat) : BufTy := match i % 128 with
  | 0 => ⟨S50000x256, .f32⟩
  | 1 => ⟨S50000x256, .f32⟩
  | 2 => ⟨S512x256, .f32⟩
  | 3 => ⟨S512x256, .f32⟩
  | 4 => ⟨S50000, .i32⟩
  | 5 => ⟨S50000, .i32⟩
  | 6 => ⟨S50000x1, .i32⟩
  | 7 => ⟨S1x512, .i32⟩
  | 8 => ⟨S50000x512, .i32⟩
  | 9 => ⟨S50000x512, .i32⟩
  | 10 => ⟨S50000x512, .i1⟩
  | 11 => ⟨S50000x512, .f32⟩
  | 12 => ⟨S50000x1, .i32⟩
  | 13 => ⟨S1x512, .i32⟩
  | 14 => ⟨S50000x512, .i32⟩
  | 15 => ⟨S50000x512, .i32⟩
  | 16 => ⟨S50000x512, .i1⟩
  | 17 => ⟨S50000x512, .f32⟩
  | 18 => ⟨S50000x256, .f32⟩
  | 19 => ⟨S_, .f32⟩
  | 20 => ⟨S50000, .f32⟩
  | 21 => ⟨S50000x1, .f32⟩
  | 22 => ⟨S50000x1, .f32⟩
  | 23 => ⟨S_, .f32⟩
  | 24 => ⟨S_, .f32⟩
  | 25 => ⟨S50000x1, .f32⟩
  | 26 => ⟨S50000x1, .f32⟩
  | 27 => ⟨S50000x256, .f32⟩
  | 28 => ⟨S50000x256, .f32⟩
  | 29 => ⟨S512x256, .f32⟩
  | 30 => ⟨S_, .f32⟩
  | 31 => ⟨S512, .f32⟩
  | 32 => ⟨S512x1, .f32⟩
  | 33 => ⟨S512x1, .f32⟩
  | 34 => ⟨S_, .f32⟩
  | 35 => ⟨S_, .f32⟩
  | 36 => ⟨S512x1, .f32⟩
  | 37 => ⟨S512x1, .f32⟩
  | 38 => ⟨S512x256, .f32⟩
  | 39 => ⟨S512x256, .f32⟩
  | 40 => ⟨S50000x256, .f32⟩
  | 41 => ⟨S_, .f32⟩
  | 42 => ⟨S50000, .f32⟩
  | 43 => ⟨S50000x1, .f32⟩
  | 44 => ⟨S50000x1, .f32⟩
  | 45 => ⟨S_, .f32⟩
  | 46 => ⟨S_, .f32⟩
  | 47 => ⟨S50000x1, .f32⟩
  | 48 => ⟨S50000x1, .f32⟩
  | 49 => ⟨S50000x256, .f32⟩
  | 50 => ⟨S50000x256, .f32⟩
  | 51 => ⟨S512x256, .f32⟩
  | 52 => ⟨S_, .f32⟩
  | 53 => ⟨S512, .f32⟩
  | 54 => ⟨S512x1, .f32⟩
  | 55 => ⟨S512x1, .f32⟩
  | 56 => ⟨S_, .f32⟩
  | 57 => ⟨S_, .f32⟩
  | 58 => ⟨S512x1, .f32⟩
  | 59 => ⟨S512x1, .f32⟩
  | 60 => ⟨S512x256, .f32⟩
  | 61 => ⟨S512x256, .f32⟩
  | 62 => ⟨S256x512, .f32⟩
  | 63 => ⟨S50000x512, .f32⟩
  | 64 => ⟨S50000x512, .f32⟩
  | 65 => ⟨S256x512, .f32⟩
  | 66 => ⟨S50000x512, .f32⟩
  | 67 => ⟨S50000x512, .f32⟩
  | 68 => ⟨S256x512, .f32⟩
  | 69 => ⟨S50000x512, .f32⟩
  | 70 => ⟨S50000x512, .f32⟩
  | 71 => ⟨S256x512, .f32⟩
  | 72 => ⟨S50000x512, .f32⟩
  | 73 => ⟨S50000x512, .f32⟩
  | 74 => ⟨S50000x512, .f32⟩
  | 75 => ⟨S_, .f32⟩
  | 76 => ⟨S50000x512, .f32⟩
  | 77 => ⟨S50000x512, .f32⟩
  | 78 => ⟨S50000x512, .f32⟩
  | 79 => ⟨S50000x512, .f32⟩
  | 80 => ⟨S50000x512, .i1⟩
  | 81 => ⟨S50000x512, .f32⟩
  | 82 => ⟨S50000x512, .f32⟩
  | 83 => ⟨S50000x512, .f32⟩
  | 84 => ⟨S50000x512, .f32⟩
  | 85 => ⟨S50000x512, .f32⟩
  | 86 => ⟨S50000x512, .f32⟩
  | 87 => ⟨S50000x512, .f32⟩
  | 88 => ⟨S50000x512, .f32⟩
  | 89 => ⟨S_, .f32⟩
  | 90 => ⟨S50000x512, .f32⟩
  | 91 => ⟨S50000x512, .f32⟩
  | 92 => ⟨S_, .f32⟩
  | 93 => ⟨S50000, .f32⟩
  | 94 => ⟨S50000x512, .f32⟩
  | 95 => ⟨S_, .f32⟩
  | 96 => ⟨S50000x512, .f32⟩
  | 97 => ⟨S50000x512, .f32⟩
  | 98 => ⟨S50000x512, .f32⟩
  | 99 => ⟨S50000x512, .f32⟩
  | 100 => ⟨S50000x512, .i1⟩
  | 101 => ⟨S50000x512, .f32⟩
  | 102 => ⟨S50000x512, .f32⟩
  | 103 => ⟨S50000x512, .f32⟩
  | 104 => ⟨S50000x512, .f32⟩
  | 105 => ⟨S50000x512, .f32⟩
  | 106 => ⟨S50000x512, .f32⟩
  | 107 => ⟨S50000x512, .f32⟩
  | 108 => ⟨S50000x512, .f32⟩
  | 109 => ⟨S_, .f32⟩
  | 110 => ⟨S50000x512, .f32⟩
  | 111 => ⟨S50000x512, .f32⟩
  | 112 => ⟨S_, .f32⟩
  | 113 => ⟨S50000, .f32⟩
  | 114 => ⟨S50000, .f32⟩
  | 115 => ⟨S50000x512, .f32⟩
  | 116 => ⟨S_, .f32⟩
  | 117 => ⟨S50000x512, .f32⟩
  | 118 => ⟨S50000x512, .f32⟩
  | 119 => ⟨S50000x512, .f32⟩
  | 120 => ⟨S50000x512, .f32⟩
  | 121 => ⟨S50000x512, .i1⟩
  | 122 => ⟨S50000x512, .f32⟩
  | 123 => ⟨S50000x512, .f32⟩
  | 124 => ⟨S50000x512, .f32⟩
  | 125 => ⟨S50000x512, .f32⟩
  | 126 => ⟨S50000x512, .f32⟩
  | 127 => ⟨S50000x512, .f32⟩
  | _ => ⟨S50000x256, .f32⟩

abbrev hbmTy0_1 (i : Nat) : BufTy := match i % 128 with
  | 0 => ⟨S50000x512, .f32⟩
  | 1 => ⟨S50000x512, .f32⟩
  | 2 => ⟨S_, .f32⟩
  | 3 => ⟨S50000x512, .f32⟩
  | 4 => ⟨S50000x512, .f32⟩
  | 5 => ⟨S_, .f32⟩
  | 6 => ⟨S50000, .f32⟩
  | 7 => ⟨S50000x512, .f32⟩
  | 8 => ⟨S_, .f32⟩
  | 9 => ⟨S50000x512, .f32⟩
  | 10 => ⟨S50000x512, .f32⟩
  | 11 => ⟨S50000x512, .f32⟩
  | 12 => ⟨S50000x512, .f32⟩
  | 13 => ⟨S50000x512, .i1⟩
  | 14 => ⟨S50000x512, .f32⟩
  | 15 => ⟨S50000x512, .f32⟩
  | 16 => ⟨S50000x512, .f32⟩
  | 17 => ⟨S50000x512, .f32⟩
  | 18 => ⟨S50000x512, .f32⟩
  | 19 => ⟨S50000x512, .f32⟩
  | 20 => ⟨S50000x512, .f32⟩
  | 21 => ⟨S50000x512, .f32⟩
  | 22 => ⟨S_, .f32⟩
  | 23 => ⟨S50000x512, .f32⟩
  | 24 => ⟨S50000x512, .f32⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S_, .f32⟩
  | 32 => ⟨S50000, .f32⟩
  | 33 => ⟨S_, .f32⟩
  | 34 => ⟨S_, .f32⟩
  | 35 => ⟨S_, .f32⟩
  | 36 => ⟨S_, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v1 : Ref sig .tc := ⟨.hbm, 17, rfl⟩
abbrev main_call2_v0 : Ref sig .tc := ⟨.hbm, 18, rfl⟩
abbrev main_call2_cst : Ref sig .tc := ⟨.hbm, 19, rfl⟩
abbrev main_call2_v1 : Ref sig .tc := ⟨.hbm, 20, rfl⟩
abbrev main_call2_v2 : Ref sig .tc := ⟨.hbm, 21, rfl⟩
abbrev main_v2 : Ref sig .tc := ⟨.hbm, 22, rfl⟩
abbrev main_cst : Ref sig .tc := ⟨.hbm, 23, rfl⟩
abbrev main_call3_v0 : Ref sig .tc := ⟨.hbm, 24, rfl⟩
abbrev main_call3_v1 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_call4_v0 : Ref sig .tc := ⟨.hbm, 29, rfl⟩
abbrev main_call4_cst : Ref sig .tc := ⟨.hbm, 30, rfl⟩
abbrev main_call4_v1 : Ref sig .tc := ⟨.hbm, 31, rfl⟩
abbrev main_call4_v2 : Ref sig .tc := ⟨.hbm, 32, rfl⟩
abbrev main_v6 : Ref sig .tc := ⟨.hbm, 33, rfl⟩
abbrev main_cst_0 : Ref sig .tc := ⟨.hbm, 34, rfl⟩
abbrev main_call5_v0 : Ref sig .tc := ⟨.hbm, 35, rfl⟩
abbrev main_call5_v1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_call6_v0 : Ref sig .tc := ⟨.hbm, 40, rfl⟩
abbrev main_call6_cst : Ref sig .tc := ⟨.hbm, 41, rfl⟩
abbrev main_call6_v1 : Ref sig .tc := ⟨.hbm, 42, rfl⟩
abbrev main_call6_v2 : Ref sig .tc := ⟨.hbm, 43, rfl⟩
abbrev main_v10 : Ref sig .tc := ⟨.hbm, 44, rfl⟩
abbrev main_cst_1 : Ref sig .tc := ⟨.hbm, 45, rfl⟩
abbrev main_call7_v0 : Ref sig .tc := ⟨.hbm, 46, rfl⟩
abbrev main_call7_v1 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_call8_v0 : Ref sig .tc := ⟨.hbm, 51, rfl⟩
abbrev main_call8_cst : Ref sig .tc := ⟨.hbm, 52, rfl⟩
abbrev main_call8_v1 : Ref sig .tc := ⟨.hbm, 53, rfl⟩
abbrev main_call8_v2 : Ref sig .tc := ⟨.hbm, 54, rfl⟩
abbrev main_v14 : Ref sig .tc := ⟨.hbm, 55, rfl⟩
abbrev main_cst_2 : Ref sig .tc := ⟨.hbm, 56, rfl⟩
abbrev main_call9_v0 : Ref sig .tc := ⟨.hbm, 57, rfl⟩
abbrev main_call9_v1 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_call10_cst : Ref sig .tc := ⟨.hbm, 75, rfl⟩
abbrev main_call10_v0 : Ref sig .tc := ⟨.hbm, 76, rfl⟩
abbrev main_call10_v1 : Ref sig .tc := ⟨.hbm, 77, rfl⟩
abbrev main_call10_v2 : Ref sig .tc := ⟨.hbm, 78, rfl⟩
abbrev main_call10_v3 : Ref sig .tc := ⟨.hbm, 79, rfl⟩
abbrev main_call10_v4 : Ref sig .tc := ⟨.hbm, 80, rfl⟩
abbrev main_call10_v5 : Ref sig .tc := ⟨.hbm, 81, rfl⟩
abbrev main_call10_v6 : Ref sig .tc := ⟨.hbm, 82, rfl⟩
abbrev main_call10_v7 : Ref sig .tc := ⟨.hbm, 83, rfl⟩
abbrev main_call10_v8 : Ref sig .tc := ⟨.hbm, 84, rfl⟩
abbrev main_call10_v9 : Ref sig .tc := ⟨.hbm, 85, rfl⟩
abbrev main_call10_v10 : Ref sig .tc := ⟨.hbm, 86, rfl⟩
abbrev main_call10_v11 : Ref sig .tc := ⟨.hbm, 87, rfl⟩
abbrev main_v31 : Ref sig .tc := ⟨.hbm, 88, rfl⟩
abbrev main_cst_3 : Ref sig .tc := ⟨.hbm, 89, rfl⟩
abbrev main_v32 : Ref sig .tc := ⟨.hbm, 90, rfl⟩
abbrev main_v33 : Ref sig .tc := ⟨.hbm, 91, rfl⟩
abbrev main_cst_4 : Ref sig .tc := ⟨.hbm, 92, rfl⟩
abbrev main_v34 : Ref sig .tc := ⟨.hbm, 93, rfl⟩
abbrev main_v35 : Ref sig .tc := ⟨.hbm, 94, rfl⟩
abbrev main_call11_cst : Ref sig .tc := ⟨.hbm, 95, rfl⟩
abbrev main_call11_v0 : Ref sig .tc := ⟨.hbm, 96, rfl⟩
abbrev main_call11_v1 : Ref sig .tc := ⟨.hbm, 97, rfl⟩
abbrev main_call11_v2 : Ref sig .tc := ⟨.hbm, 98, rfl⟩
abbrev main_call11_v3 : Ref sig .tc := ⟨.hbm, 99, rfl⟩
abbrev main_call11_v4 : Ref sig .tc := ⟨.hbm, 100, rfl⟩
abbrev main_call11_v5 : Ref sig .tc := ⟨.hbm, 101, rfl⟩
abbrev main_call11_v6 : Ref sig .tc := ⟨.hbm, 102, rfl⟩
abbrev main_call11_v7 : Ref sig .tc := ⟨.hbm, 103, rfl⟩
abbrev main_call11_v8 : Ref sig .tc := ⟨.hbm, 104, rfl⟩
abbrev main_call11_v9 : Ref sig .tc := ⟨.hbm, 105, rfl⟩
abbrev main_call11_v10 : Ref sig .tc := ⟨.hbm, 106, rfl⟩
abbrev main_call11_v11 : Ref sig .tc := ⟨.hbm, 107, rfl⟩
abbrev main_v36 : Ref sig .tc := ⟨.hbm, 108, rfl⟩
abbrev main_cst_5 : Ref sig .tc := ⟨.hbm, 109, rfl⟩
abbrev main_v37 : Ref sig .tc := ⟨.hbm, 110, rfl⟩
abbrev main_v38 : Ref sig .tc := ⟨.hbm, 111, rfl⟩
abbrev main_cst_6 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_call12_cst : Ref sig .tc := ⟨.hbm, 116, rfl⟩
abbrev main_call12_v0 : Ref sig .tc := ⟨.hbm, 117, rfl⟩
abbrev main_call12_v1 : Ref sig .tc := ⟨.hbm, 118, rfl⟩
abbrev main_call12_v2 : Ref sig .tc := ⟨.hbm, 119, rfl⟩
abbrev main_call12_v3 : Ref sig .tc := ⟨.hbm, 120, rfl⟩
abbrev main_call12_v4 : Ref sig .tc := ⟨.hbm, 121, rfl⟩
abbrev main_call12_v5 : Ref sig .tc := ⟨.hbm, 122, rfl⟩
abbrev main_call12_v6 : Ref sig .tc := ⟨.hbm, 123, rfl⟩
abbrev main_call12_v7 : Ref sig .tc := ⟨.hbm, 124, rfl⟩
abbrev main_call12_v8 : Ref sig .tc := ⟨.hbm, 125, rfl⟩
abbrev main_call12_v9 : Ref sig .tc := ⟨.hbm, 126, rfl⟩
abbrev main_call12_v10 : Ref sig .tc := ⟨.hbm, 127, rfl⟩
abbrev main_call12_v11 : Ref sig .tc := ⟨.hbm, 128, rfl⟩
abbrev main_v42 : Ref sig .tc := ⟨.hbm, 129, rfl⟩
abbrev main_cst_7 : Ref sig .tc := ⟨.hbm, 130, rfl⟩
abbrev main_v43 : Ref sig .tc := ⟨.hbm, 131, rfl⟩
abbrev main_v44 : Ref sig .tc := ⟨.hbm, 132, rfl⟩
abbrev main_cst_8 : Ref sig .tc := ⟨.hbm, 133, rfl⟩
abbrev main_v45 : Ref sig .tc := ⟨.hbm, 134, rfl⟩
abbrev main_v46 : Ref sig .tc := ⟨.hbm, 135, rfl⟩
abbrev main_call13_cst : Ref sig .tc := ⟨.hbm, 136, rfl⟩
abbrev main_call13_v0 : Ref sig .tc := ⟨.hbm, 137, rfl⟩
abbrev main_call13_v1 : Ref sig .tc := ⟨.hbm, 138, rfl⟩
abbrev main_call13_v2 : Ref sig .tc := ⟨.hbm, 139, rfl⟩
abbrev main_call13_v3 : Ref sig .tc := ⟨.hbm, 140, rfl⟩
abbrev main_call13_v4 : Ref sig .tc := ⟨.hbm, 141, rfl⟩
abbrev main_call13_v5 : Ref sig .tc := ⟨.hbm, 142, rfl⟩
abbrev main_call13_v6 : Ref sig .tc := ⟨.hbm, 143, rfl⟩
abbrev main_call13_v7 : Ref sig .tc := ⟨.hbm, 144, rfl⟩
abbrev main_call13_v8 : Ref sig .tc := ⟨.hbm, 145, rfl⟩
abbrev main_call13_v9 : Ref sig .tc := ⟨.hbm, 146, rfl⟩
abbrev main_call13_v10 : Ref sig .tc := ⟨.hbm, 147, rfl⟩
abbrev main_call13_v11 : Ref sig .tc := ⟨.hbm, 148, rfl⟩
abbrev main_v47 : Ref sig .tc := ⟨.hbm, 149, rfl⟩
abbrev main_cst_9 : Ref sig .tc := ⟨.hbm, 150, rfl⟩
abbrev main_v48 : Ref sig .tc := ⟨.hbm, 151, rfl⟩
abbrev main_v49 : Ref sig .tc := ⟨.hbm, 152, rfl⟩
abbrev main_cst_10 : Ref sig .tc := ⟨.hbm, 153, rfl⟩
abbrev main_v50 : Ref sig .tc := ⟨.hbm, 154, rfl⟩
abbrev main_v51 : Ref sig .tc := ⟨.hbm, 155, rfl⟩
abbrev main_v52 : Ref sig .tc := ⟨.hbm, 156, rfl⟩
abbrev main_cst_11 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_cst_12 : Ref sig .tc := ⟨.hbm, 161, rfl⟩
abbrev main_v56 : Ref sig .tc := ⟨.hbm, 162, rfl⟩
abbrev main_v57 : Ref sig .tc := ⟨.hbm, 163, rfl⟩
abbrev main_v58 : Ref sig .tc := ⟨.hbm, 164, rfl⟩

abbrev nD : Nat := 1
abbrev τ : Topo := Topo.v7x

variable {F : FTy → Type} [FloatOps F]

class Facts₀ : Prop where
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S1x512_S50000x512_0_1 : S1x512.BroadcastsInDim S50000x512 (![0, 1] : Fin 2 → Fin S50000x512.rank)
  reducesTo_S50000x256_S50000_d1 : S50000x256.ReducesTo [1] S50000
  h_S_ : 0 < S_.numel
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  reducesTo_S512x256_S512_d1 : S512x256.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  transposes_S512x256_S256x512_1_0 : S512x256.Transposes [1, 0] S256x512
  bcast_S_S50000x512 : S_.BroadcastsInDim S50000x512 (![] : Fin 0 → Fin S50000x512.rank)
  reducesTo_S50000x512_S50000_d1 : S50000x512.ReducesTo [1] S50000
  reducesTo_S50000_S_d0 : S50000.ReducesTo [0] S_
  dot_S50000x256_S256x512_S50000x512_1_0_0_1_n_n_wf : DotDims.WF S50000x256 S256x512 S50000x512 [1] [0] [0] [1] [] []

variable [Facts₀]

def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf

class Facts : Prop extends Facts₀ where

variable [Facts]
-- ==== Proof.Blocks.lean ====
/-
  Each input window's block at a grid point, under its literal type: the two 256-row node tiles, the two whole
  graph arrays, the two 256-row label tiles.
-/
import proofs.«163930_j49959059587771_1_alg».proof.Proof.Gen.KernelIdeal.Frame

noncomputable section

namespace Cert.KernelIdeal.Blocks

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

abbrev z1blk (c : Dev nD) (t : Fin cfg0.N) : Vec F S256x256 .f32 := iblk m c 0 t
abbrev z2blk (c : Dev nD) (t : Fin cfg0.N) : Vec F S256x256 .f32 := iblk m c 1 t
abbrev g1blk (c : Dev nD) (t : Fin cfg0.N) : Vec F S512x256 .f32 := iblk m c 2 t
abbrev g2blk (c : Dev nD) (t : Fin cfg0.N) : Vec F S512x256 .f32 := iblk m c 3 t
abbrev b1blk (c : Dev nD) (t : Fin cfg0.N) : Vec F S256x1 .i32 := iblk m c 4 t
abbrev b2blk (c : Dev nD) (t : Fin cfg0.N) : Vec F S256x1 .i32 := iblk m c 5 t

end Cert.KernelIdeal.Blocks

end
-- ==== Proof.Pieces.lean ====
import proofs.«163930_j49959059587771_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The first view's row differences of a tile. -/
abbrev d1 (x0 : Vec F S256x256 .f32) (x2 x3 : Vec F S512x256 .f32) (x4 : Vec F S256x1 .i32) : FVec F S256x1 .f32 :=
  k0_pay17 (k0_pay13 (F := F) x4) (k0_pay15 (k0_pay9 x0 x2) x4) (k0_pay16 (k0_pay10 x0 x3)) (Scalar.ofBits .f32 0x3F317218#32)
/-- The first accumulator after a tile. -/
abbrev new1 (x0 : Vec F S256x256 .f32) (x2 x3 : Vec F S512x256 .f32) (x4 : Vec F S256x1 .i32) (acc : Vec F S1x1 .f32) : FVec F S1x1 .f32 :=
  k0_pay1 (d1 x0 x2 x3 x4) acc
/-- The second accumulator after a tile. -/
abbrev new2 (x1 : Vec F S256x256 .f32) (x2 x3 : Vec F S512x256 .f32) (x5 : Vec F S256x1 .i32) (acc : Vec F S1x1 .f32) : FVec F S1x1 .f32 :=
  k0_pay2 (k0_pay14 (F := F) x5) (k0_pay18 (k0_pay11 x1 x3) (k0_pay14 (F := F) x5)) (k0_pay19 (k0_pay12 x1 x2)) (Scalar.ofBits .f32 0x00000000#32) acc

/-! Each case of the body leaves in the two accumulators the old contents plus the tile's sum
(at the first point the old contents are the zero just stored), and at the last point copies them to the outputs. -/

theorem sA0 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x1 .i32) (harg5 : arg5.IsWhole) (arg6 : Memref sig .tc .vmem S256x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i) (x0 : Vec F S256x256 .f32) (x1 : Vec F S256x256 .f32) (x2 : Vec F S512x256 .f32) (x3 : Vec F S512x256 .f32) (x4 : Vec F S256x1 .i32) (x5 : Vec F S256x1 .i32)  :
    sout0_A_0 c i arg1 harg1 arg2 harg2 arg3 harg3 arg4 harg4 arg5 harg5 arg6 harg6 arg7 harg7 arg8 harg8 arg9 harg9 arg10 harg10 hc0 hc1 x0 x1 x2 x3 x4 x5 = new1 x0 x2 x3 x4 (k0_pay3 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg9.read_unread, harg10.read_unread, View.ld_unit_zero (S := S1x1) hz, View.ld_unit_zero (S := S256x256) hz, View.ld_unit_zero (S := S512x256) hz, View.ld_unit_zero (S := S256x1) hz, View.readCov_unit_zero (S := S1x1) _ hz]

theorem sA1 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x1 .i32) (harg5 : arg5.IsWhole) (arg6 : Memref sig .tc .vmem S256x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i) (x0 : Vec F S256x256 .f32) (x1 : Vec F S256x256 .f32) (x2 : Vec F S512x256 .f32) (x3 : Vec F S512x256 .f32) (x4 : Vec F S256x1 .i32) (x5 : Vec F S256x1 .i32)  :
    sout0_A_1 c i arg1 harg1 arg2 harg2 arg3 harg3 arg4 harg4 arg5 harg5 arg6 harg6 arg7 harg7 arg8 harg8 arg9 harg9 arg10 harg10 hc0 hc1 x0 x1 x2 x3 x4 x5 = new2 x1 x2 x3 x5 (k0_pay4 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg9.read_unread, harg10.read_unread, View.ld_unit_zero (S := S1x1) hz, View.ld_unit_zero (S := S256x256) hz, View.ld_unit_zero (S := S512x256) hz, View.ld_unit_zero (S := S256x1) hz, View.readCov_unit_zero (S := S1x1) _ hz]

theorem sB0 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x1 .i32) (harg5 : arg5.IsWhole) (arg6 : Memref sig .tc .vmem S256x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (x0 : Vec F S256x256 .f32) (x1 : Vec F S256x256 .f32) (x2 : Vec F S512x256 .f32) (x3 : Vec F S512x256 .f32) (x4 : Vec F S256x1 .i32) (x5 : Vec F S256x1 .i32) (xs0 xs1 : Vec F S1x1 .f32) :
    sout0_B_0 c i arg1 harg1 arg2 harg2 arg3 harg3 arg4 harg4 arg5 harg5 arg6 harg6 arg7 harg7 arg8 harg8 arg9 harg9 arg10 harg10 hc0 hc1 x0 x1 x2 x3 x4 x5 xs0 xs1 = new1 x0 x2 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, harg10.read_unread, View.ld_unit_zero (S := S1x1) hz, View.ld_unit_zero (S := S256x256) hz, View.ld_unit_zero (S := S512x256) hz, View.ld_unit_zero (S := S256x1) hz, View.readCov_unit_zero (S := S1x1) _ hz]

theorem sB1 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x1 .i32) (harg5 : arg5.IsWhole) (arg6 : Memref sig .tc .vmem S256x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i) (x0 : Vec F S256x256 .f32) (x1 : Vec F S256x256 .f32) (x2 : Vec F S512x256 .f32) (x3 : Vec F S512x256 .f32) (x4 : Vec F S256x1 .i32) (x5 : Vec F S256x1 .i32) (xs0 xs1 : Vec F S1x1 .f32) :
    sout0_B_1 c i arg1 harg1 arg2 harg2 arg3 harg3 arg4 harg4 arg5 harg5 arg6 harg6 arg7 harg7 arg8 harg8 arg9 harg9 arg10 harg10 hc0 hc1 x0 x1 x2 x3 x4 x5 xs0 xs1 = new2 x1 x2 x3 x5 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg9.read_unread, harg10.read_unread, View.ld_unit_zero (S := S1x1) hz, View.ld_unit_zero (S := S256x256) hz, View.ld_unit_zero (S := S512x256) hz, View.ld_unit_zero (S := S256x1) hz, View.readCov_unit_zero (S := S1x1) _ hz]

theorem sC0 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x1 .i32) (harg5 : arg5.IsWhole) (arg6 : Memref sig .tc .vmem S256x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S256x256 .f32) (x1 : Vec F S256x256 .f32) (x2 : Vec F S512x256 .f32) (x3 : Vec F S512x256 .f32) (x4 : Vec F S256x1 .i32) (x5 : Vec F S256x1 .i32) (xs0 xs1 : Vec F S1x1 .f32) :
    sout0_C_0 c i arg1 harg1 arg2 harg2 arg3 harg3 arg4 harg4 arg5 harg5 arg6 harg6 arg7 harg7 arg8 harg8 arg9 harg9 arg10 harg10 hc0 hc1 x0 x1 x2 x3 x4 x5 xs0 xs1 = new1 x0 x2 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg9.read_unread, harg10.read_unread, View.ld_unit_zero (S := S1x1) hz, View.ld_unit_zero (S := S256x256) hz, View.ld_unit_zero (S := S512x256) hz, View.ld_unit_zero (S := S256x1) hz, View.readCov_unit_zero (S := S1x1) _ hz]

theorem sC1 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x1 .i32) (harg5 : arg5.IsWhole) (arg6 : Memref sig .tc .vmem S256x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S256x256 .f32) (x1 : Vec F S256x256 .f32) (x2 : Vec F S512x256 .f32) (x3 : Vec F S512x256 .f32) (x4 : Vec F S256x1 .i32) (x5 : Vec F S256x1 .i32) (xs0 xs1 : Vec F S1x1 .f32) :
    sout0_C_1 c i arg1 harg1 arg2 harg2 arg3 harg3 arg4 harg4 arg5 harg5 arg6 harg6 arg7 harg7 arg8 harg8 arg9 harg9 arg10 harg10 hc0 hc1 x0 x1 x2 x3 x4 x5 xs0 xs1 = new2 x1 x2 x3 x5 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg9.read_unread, harg10.read_unread, View.ld_unit_zero (S := S1x1) hz, View.ld_unit_zero (S := S256x256) hz, View.ld_unit_zero (S := S512x256) hz, View.ld_unit_zero (S := S256x1) hz, View.readCov_unit_zero (S := S1x1) _ hz]

theorem oC6 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x1 .i32) (harg5 : arg5.IsWhole) (arg6 : Memref sig .tc .vmem S256x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S256x256 .f32) (x1 : Vec F S256x256 .f32) (x2 : Vec F S512x256 .f32) (x3 : Vec F S512x256 .f32) (x4 : Vec F S256x1 .i32) (x5 : Vec F S256x1 .i32) (xs0 xs1 : Vec F S1x1 .f32) :
    out0_C_6 c i arg1 harg1 arg2 harg2 arg3 harg3 arg4 harg4 arg5 harg5 arg6 harg6 arg7 harg7 arg8 harg8 arg9 harg9 arg10 harg10 hc0 hc1 x0 x1 x2 x3 x4 x5 xs0 xs1 = new1 x0 x2 x3 x4 xs0 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg9.read_unread, harg10.read_unread, View.ld_unit_zero (S := S1x1) hz, View.ld_unit_zero (S := S256x256) hz, View.ld_unit_zero (S := S512x256) hz, View.ld_unit_zero (S := S256x1) hz, View.readCov_unit_zero (S := S1x1) _ hz]

theorem oC7 (c : Dev nD) (i : grid0.Coords) (arg1 : Memref sig .tc .vmem S256x256 .f32) (harg1 : arg1.IsWhole) (arg2 : Memref sig .tc .vmem S256x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S256x1 .i32) (harg5 : arg5.IsWhole) (arg6 : Memref sig .tc .vmem S256x1 .i32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i) (x0 : Vec F S256x256 .f32) (x1 : Vec F S256x256 .f32) (x2 : Vec F S512x256 .f32) (x3 : Vec F S512x256 .f32) (x4 : Vec F S256x1 .i32) (x5 : Vec F S256x1 .i32) (xs0 xs1 : Vec F S1x1 .f32) :
    out0_C_7 c i arg1 harg1 arg2 harg2 arg3 harg3 arg4 harg4 arg5 harg5 arg6 harg6 arg7 harg7 arg8 harg8 arg9 harg9 arg10 harg10 hc0 hc1 x0 x1 x2 x3 x4 x5 xs0 xs1 = new2 x1 x2 x3 x5 xs1 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg9.read_unread, harg10.read_unread, View.ld_unit_zero (S := S1x1) hz, View.ld_unit_zero (S := S256x256) hz, View.ld_unit_zero (S := S512x256) hz, View.ld_unit_zero (S := S256x1) hz, View.readCov_unit_zero (S := S1x1) _ hz]

end Cert.KernelIdeal.Pieces

end
-- ==== Proof.KernelAcc.lean ====
/-
  The kernel's run read as values, for any float instance: the two scratch accumulators after grid point n hold
  the running sums over tiles 0 .. n (zero, stored at the first point, plus each tile's sum in turn); the last
  point copies them to the two 1 x 1 outputs, its block the whole array; and the host lines after the region take
  the square roots and add them.
-/
import proofs.«163930_j49959059587771_1_alg».proof.Proof.Blocks
import proofs.«163930_j49959059587771_1_alg».proof.Proof.Pieces
import Idealize.ShloMosaic.Lib.Pipeline.Value
import Idealize.ShloMosaic.Lib.StableHlo.Run
import Idealize.ShloMosaic.Lib.Tactic

set_option maxRecDepth 16384

noncomputable section

namespace Cert.KernelIdeal.Acc

open Cert.KernelIdeal Cert.KernelIdeal.Gen Cert.KernelIdeal.Blocks Cert.KernelIdeal.Pieces
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The first accumulator after point n: zero plus the sums of tiles 0 .. n, added in order. -/
def run1 (c : Dev nD) : (n : ℕ) → n < cfg0.N → Vec F S1x1 .f32
  | 0, h => new1 (z1blk m c ⟨0, h⟩) (g1blk m c ⟨0, h⟩) (g2blk m c ⟨0, h⟩) (b1blk m c ⟨0, h⟩) (k0_pay3 (F := F))
  | n + 1, h => new1 (z1blk m c ⟨n + 1, h⟩) (g1blk m c ⟨n + 1, h⟩) (g2blk m c ⟨n + 1, h⟩) (b1blk m c ⟨n + 1, h⟩) (run1 c n (Nat.lt_of_succ_lt h))
/-- The second accumulator after point n. -/
def run2 (c : Dev nD) : (n : ℕ) → n < cfg0.N → Vec F S1x1 .f32
  | 0, h => new2 (z2blk m c ⟨0, h⟩) (g1blk m c ⟨0, h⟩) (g2blk m c ⟨0, h⟩) (b2blk m c ⟨0, h⟩) (k0_pay4 (F := F))
  | n + 1, h => new2 (z2blk m c ⟨n + 1, h⟩) (g1blk m c ⟨n + 1, h⟩) (g2blk m c ⟨n + 1, h⟩) (b2blk m c ⟨n + 1, h⟩) (run2 c n (Nat.lt_of_succ_lt h))

/-- At the first point both accumulators are reset and take the first tile's sums. -/
theorem scr_A (c : Dev nD) (t : Fin cfg0.N) (h0 : t.val % 196 = 0) (h1 : ¬t.val % 196 = 195) :
    (outsAt0 m c t.val t.isLt).2.2
      = (new1 (z1blk m c t) (g1blk m c t) (g2blk m c t) (b1blk m c t) (k0_pay3 (F := F)),
         new2 (z2blk m c t) (g1blk m c t) (g2blk m c t) (b2blk m c t) (k0_pay4 (F := F))) := by
  rw [outsAt0_A m c t h0 h1]
  dsimp only
  exact congrArg₂ Prod.mk
    (sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t))
    (sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t))

/-- At a middle point each accumulator takes its tile's sum on top of what the point before left. -/
theorem scr_B (c : Dev nD) (t : Fin cfg0.N) (h0 : ¬t.val % 196 = 0) (h1 : ¬t.val % 196 = 195) :
    (outsAt0 m c t.val t.isLt).2.2
      = (new1 (z1blk m c t) (g1blk m c t) (g2blk m c t) (b1blk m c t) (outsAt0 m c (t.val - 1) (Nat.lt_of_le_of_lt (Nat.sub_le _ _) t.isLt)).2.2.1,
         new2 (z2blk m c t) (g1blk m c t) (g2blk m c t) (b2blk m c t) (outsAt0 m c (t.val - 1) (Nat.lt_of_le_of_lt (Nat.sub_le _ _) t.isLt)).2.2.2) := by
  rw [outsAt0_B m c t h0 h1]
  dsimp only
  exact congrArg₂ Prod.mk
    (sB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)
    (sB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)

/-- At the last point the same, and the two outputs receive the accumulators' new contents. -/
theorem all_C (c : Dev nD) (t : Fin cfg0.N) (h0 : ¬t.val % 196 = 0) (h1 : t.val % 196 = 195) :
    outsAt0 m c t.val t.isLt
      = (new1 (z1blk m c t) (g1blk m c t) (g2blk m c t) (b1blk m c t) (outsAt0 m c (t.val - 1) (Nat.lt_of_le_of_lt (Nat.sub_le _ _) t.isLt)).2.2.1,
         new2 (z2blk m c t) (g1blk m c t) (g2blk m c t) (b2blk m c t) (outsAt0 m c (t.val - 1) (Nat.lt_of_le_of_lt (Nat.sub_le _ _) t.isLt)).2.2.2,
         new1 (z1blk m c t) (g1blk m c t) (g2blk m c t) (b1blk m c t) (outsAt0 m c (t.val - 1) (Nat.lt_of_le_of_lt (Nat.sub_le _ _) t.isLt)).2.2.1,
         new2 (z2blk m c t) (g1blk m c t) (g2blk m c t) (b2blk m c t) (outsAt0 m c (t.val - 1) (Nat.lt_of_le_of_lt (Nat.sub_le _ _) t.isLt)).2.2.2) := by
  rw [outsAt0_C m c t h0 h1]
  exact congrArg₂ Prod.mk
    (oC6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)
    (congrArg₂ Prod.mk
      (oC7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)
      (congrArg₂ Prod.mk
        (sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)
        (sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)))

/-- The accumulators after every point are the running sums: by induction on the point. -/
theorem scr_eq (c : Dev nD) : ∀ (n : ℕ) (h : n < cfg0.N), (outsAt0 m c n h).2.2 = (run1 m c n h, run2 m c n h)
  | 0, h => scr_A m c ⟨0, h⟩ rfl (by show ¬(0 % 196 = 195); decide)
  | n + 1, h => by
    have hN : cfg0.N = 196 := N_0
    have ih := scr_eq c n (Nat.lt_of_succ_lt h)
    have e1 : (outsAt0 m c n (Nat.lt_of_succ_lt h)).2.2.1 = run1 m c n (Nat.lt_of_succ_lt h) := congrArg Prod.fst ih
    have e2 : (outsAt0 m c n (Nat.lt_of_succ_lt h)).2.2.2 = run2 m c n (Nat.lt_of_succ_lt h) := congrArg Prod.snd ih
    have hB0 : ¬(⟨n + 1, h⟩ : Fin cfg0.N).val % 196 = 0 := by dsimp only; omega
    by_cases hl : (⟨n + 1, h⟩ : Fin cfg0.N).val % 196 = 195
    · have hc := all_C m c ⟨n + 1, h⟩ hB0 hl
      refine (congrArg (fun p => p.2.2) hc).trans ?_
      show (new1 _ _ _ _ (outsAt0 m c n _).2.2.1, new2 _ _ _ _ (outsAt0 m c n _).2.2.2) = (run1 m c (n + 1) h, run2 m c (n + 1) h)
      rw [e1, e2]; rfl
    · refine (scr_B m c ⟨n + 1, h⟩ hB0 hl).trans ?_
      show (new1 _ _ _ _ (outsAt0 m c n _).2.2.1, new2 _ _ _ _ (outsAt0 m c n _).2.2.2) = (run1 m c (n + 1) h, run2 m c (n + 1) h)
      rw [e1, e2]; rfl

/-- At the last point the two outputs' staging buffers receive the running sums. -/
theorem out_C (c : Dev nD) (n : ℕ) (h : n + 1 < cfg0.N) (hl : (n + 1) % 196 = 195) :
    (outsAt0 m c (n + 1) h).1 = run1 m c (n + 1) h ∧ (outsAt0 m c (n + 1) h).2.1 = run2 m c (n + 1) h := by
  have hN : cfg0.N = 196 := N_0
  have hB0 : ¬(⟨n + 1, h⟩ : Fin cfg0.N).val % 196 = 0 := by dsimp only; omega
  have hc := all_C m c ⟨n + 1, h⟩ hB0 hl
  have ih := scr_eq m c n (Nat.lt_of_succ_lt h)
  have e1 : (outsAt0 m c n (Nat.lt_of_succ_lt h)).2.2.1 = run1 m c n (Nat.lt_of_succ_lt h) := congrArg Prod.fst ih
  have e2 : (outsAt0 m c n (Nat.lt_of_succ_lt h)).2.2.2 = run2 m c n (Nat.lt_of_succ_lt h) := congrArg Prod.snd ih
  constructor
  · refine (congrArg (fun p => p.1) hc).trans ?_
    show new1 _ _ _ _ (outsAt0 m c n _).2.2.1 = run1 m c (n + 1) h
    rw [e1]; rfl
  · refine (congrArg (fun p => p.2.1) hc).trans ?_
    show new2 _ _ _ _ (outsAt0 m c n _).2.2.2 = run2 m c (n + 1) h
    rw [e2]; rfl

end Cert.KernelIdeal.Acc

end
-- ==== Proof.KernelRun.lean ====
/-
  The kernel's result: after the last grid point each 1 x 1 output array holds its accumulator's running sum over
  all 196 tiles (that point's block is the whole array), and the host lines after the region return
  sqrt(first) + sqrt(second).
-/
import proofs.«163930_j49959059587771_1_alg».proof.Proof.KernelAcc

set_option maxRecDepth 16384

noncomputable section

namespace Cert.KernelIdeal.Acc

open Cert.KernelIdeal Cert.KernelIdeal.Gen Cert.KernelIdeal.Blocks Cert.KernelIdeal.Pieces
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem lt195 : 195 < cfg0.N := by rw [show cfg0.N = 196 from N_0]; decide

/-- The running sums after the last point, as contents of the two output arrays. -/
abbrev res1 (c : Dev nD) : Buf (Elt F) ((c : Thread nD τ).loc main_v14_0) := run1 m c 195 lt195
abbrev res2 (c : Dev nD) : Buf (Elt F) ((c : Thread nD τ).loc main_v14_1) := run2 m c 195 lt195

/-- The one write-back of the first output, at the last point, writes the first running sum. -/
theorem out6 (c : Dev nD) (t : Fin cfg0.N) (hl : t.val % 196 = 195) :
    (outsAt0 m c t.val t.isLt).1 = run1 m c t.val t.isLt := by
  obtain ⟨n, hn⟩ := t
  cases n with
  | zero => exact absurd hl (by show ¬(0 % 196 = 195); decide)
  | succ n => exact (out_C m c n hn hl).1

theorem run1_last (c : Dev nD) (n : ℕ) (hn : n < cfg0.N) (e : n = 195) : run1 m c n hn = res1 m c := by
  subst e; rfl

theorem idx6 : ∀ (t : Fin cfg0.N) (a : Fin 2), win0_6.index t a * main_v14_0.ty.shape.size a = 0 := by decide +kernel

theorem flushed6 (c : Dev nD) (t : Fin cfg0.N) (hf : (cfg0.win 6).flush t = true) :
    (dats m 0 c).flushed 6 t = ((cfg0.win 6).blk t).view.read (Elt F) (res1 m c) := by
  have hN : cfg0.N = 196 := N_0
  have hl : t.val % 196 = 195 := (flush0_6 t).mp hf
  have h3 : t.val = 195 := by have := t.isLt; omega
  show (cfg0.win 6).cut (grid0.coords t) ((dats m 0 c).after 6 t) = _
  rw [after0_6, out6 m c t hl, run1_last m c t.val t.isLt h3]
  have hz' : (fun a => win0_6.index t a * main_v14_0.ty.shape.size a) = fun _ => 0 := funext fun a => idx6 t a
  exact (Memref.read_access_unit_zero (Elt F) main_v14_0 hz' (fun a => by rw [congrFun hz' a]; simp) (res1 m c)).symm

/-- The one write-back of the second output writes the second running sum. -/
theorem out7 (c : Dev nD) (t : Fin cfg0.N) (hl : t.val % 196 = 195) :
    (outsAt0 m c t.val t.isLt).2.1 = run2 m c t.val t.isLt := by
  obtain ⟨n, hn⟩ := t
  cases n with
  | zero => exact absurd hl (by show ¬(0 % 196 = 195); decide)
  | succ n => exact (out_C m c n hn hl).2

theorem run2_last (c : Dev nD) (n : ℕ) (hn : n < cfg0.N) (e : n = 195) : run2 m c n hn = res2 m c := by
  subst e; rfl

theorem idx7 : ∀ (t : Fin cfg0.N) (a : Fin 2), win0_7.index t a * main_v14_1.ty.shape.size a = 0 := by decide +kernel

theorem flushed7 (c : Dev nD) (t : Fin cfg0.N) (hf : (cfg0.win 7).flush t = true) :
    (dats m 0 c).flushed 7 t = ((cfg0.win 7).blk t).view.read (Elt F) (res2 m c) := by
  have hN : cfg0.N = 196 := N_0
  have hl : t.val % 196 = 195 := (flush0_7 t).mp hf
  have h3 : t.val = 195 := by have := t.isLt; omega
  show (cfg0.win 7).cut (grid0.coords t) ((dats m 0 c).after 7 t) = _
  rw [after0_7, out7 m c t hl, run2_last m c t.val t.isLt h3]
  have hz' : (fun a => win0_7.index t a * main_v14_1.ty.shape.size a) = fun _ => 0 := funext fun a => idx7 t a
  exact (Memref.read_access_unit_zero (Elt F) main_v14_1 hz' (fun a => by rw [congrFun hz' a]; simp) (res2 m c)).symm

/-- So the output arrays end holding the running sums. -/
theorem final6 (c : Dev nD) : (dats m 0 c).arrAt 6 cfg0.N = res1 m c :=
  (dats m 0 c).arrAt_eq_of_cover 6 (res1 m c) (flushed6 m c) fun i =>
    ⟨(⟨195, lt195⟩ : Fin cfg0.N), (flush0_6 _).mpr rfl, by
      show i ∈ ((View.whole main_v14_0).slice (win0_6.rect (⟨195, lt195⟩ : Fin cfg0.N))).set
      rw [View.set_slice_whole, Rect.mem_set_unit]
      intro a
      have h0 : (i 0 : Nat) < 1 := (i 0).isLt
      have h1 : (i 1 : Nat) < 1 := (i 1).isLt
      match a with
      | ⟨0, _⟩ => show win0_6.index (⟨195, lt195⟩ : Fin cfg0.N) 0 * win0_6.size 0 ≤ (i 0 : Nat) ∧ (i 0 : Nat) < win0_6.index (⟨195, lt195⟩ : Fin cfg0.N) 0 * win0_6.size 0 + win0_6.xsize (grid0.coords (⟨195, lt195⟩ : Fin cfg0.N)) 0
                  rw [show win0_6.index (⟨195, lt195⟩ : Fin cfg0.N) 0 * win0_6.size 0 = 0 from by decide +kernel, show win0_6.xsize (grid0.coords (⟨195, lt195⟩ : Fin cfg0.N)) 0 = 1 from by decide +kernel]; omega
      | ⟨1, _⟩ => show win0_6.index (⟨195, lt195⟩ : Fin cfg0.N) 1 * win0_6.size 1 ≤ (i 1 : Nat) ∧ (i 1 : Nat) < win0_6.index (⟨195, lt195⟩ : Fin cfg0.N) 1 * win0_6.size 1 + win0_6.xsize (grid0.coords (⟨195, lt195⟩ : Fin cfg0.N)) 1
                  rw [show win0_6.index (⟨195, lt195⟩ : Fin cfg0.N) 1 * win0_6.size 1 = 0 from by decide +kernel, show win0_6.xsize (grid0.coords (⟨195, lt195⟩ : Fin cfg0.N)) 1 = 1 from by decide +kernel]; omega⟩

theorem final7 (c : Dev nD) : (dats m 0 c).arrAt 7 cfg0.N = res2 m c :=
  (dats m 0 c).arrAt_eq_of_cover 7 (res2 m c) (flushed7 m c) fun i =>
    ⟨(⟨195, lt195⟩ : Fin cfg0.N), (flush0_7 _).mpr rfl, by
      show i ∈ ((View.whole main_v14_1).slice (win0_7.rect (⟨195, lt195⟩ : Fin cfg0.N))).set
      rw [View.set_slice_whole, Rect.mem_set_unit]
      intro a
      have h0 : (i 0 : Nat) < 1 := (i 0).isLt
      have h1 : (i 1 : Nat) < 1 := (i 1).isLt
      match a with
      | ⟨0, _⟩ => show win0_7.index (⟨195, lt195⟩ : Fin cfg0.N) 0 * win0_7.size 0 ≤ (i 0 : Nat) ∧ (i 0 : Nat) < win0_7.index (⟨195, lt195⟩ : Fin cfg0.N) 0 * win0_7.size 0 + win0_7.xsize (grid0.coords (⟨195, lt195⟩ : Fin cfg0.N)) 0
                  rw [show win0_7.index (⟨195, lt195⟩ : Fin cfg0.N) 0 * win0_7.size 0 = 0 from by decide +kernel, show win0_7.xsize (grid0.coords (⟨195, lt195⟩ : Fin cfg0.N)) 0 = 1 from by decide +kernel]; omega
      | ⟨1, _⟩ => show win0_7.index (⟨195, lt195⟩ : Fin cfg0.N) 1 * win0_7.size 1 ≤ (i 1 : Nat) ∧ (i 1 : Nat) < win0_7.index (⟨195, lt195⟩ : Fin cfg0.N) 1 * win0_7.size 1 + win0_7.xsize (grid0.coords (⟨195, lt195⟩ : Fin cfg0.N)) 1
                  rw [show win0_7.index (⟨195, lt195⟩ : Fin cfg0.N) 1 * win0_7.size 1 = 0 from by decide +kernel, show win0_7.xsize (grid0.coords (⟨195, lt195⟩ : Fin cfg0.N)) 1 = 1 from by decide +kernel]; omega⟩

/-- The host lines after the region: each 1 x 1 array as a scalar, its square root, the two added. -/
def tail (a b : Vec F S1x1 .f32) : Vec F S_ .f32 :=
  addf (Host.sqrt (shapeCast S_ a shapeCasts_S1x1_S_)) (Host.sqrt (shapeCast S_ b shapeCasts_S1x1_S_))

theorem tail_eq (c : Dev nD) :
    Pipeline.afterTail₀ cfgs (dats m) 0 (V0 m) [hostOps1] c main_v19 = tail (res1 m c) (res2 m c) := by
  unfold Pipeline.afterTail₀
  show StableHlo.after hostOps1 _ (Proc.devRef .tc main_v19) = _
  after_results
  have e6 : Pipeline.withArrays (cfgs 0).spec c (V0 m c) (fun w => (dats m 0 c).arrAt w (cfgs 0).N) (Proc.devRef .tc main_v14_0) = res1 m c :=
    (Pipeline.withArrays_arr spec0 launch0.win.arr_inj c _ _ 6).trans (final6 m c)
  have e7 : Pipeline.withArrays (cfgs 0).spec c (V0 m c) (fun w => (dats m 0 c).arrAt w (cfgs 0).N) (Proc.devRef .tc main_v14_1) = res2 m c :=
    (Pipeline.withArrays_arr spec0 launch0.win.arr_inj c _ _ 7).trans (final7 m c)
  rw [e6, e7]
  rfl

/-- The run, read: the result at the tail of the two running sums, the six arguments unchanged. -/
theorem run : θ_run defs (onTc (τ := τ) (main (F := F))) ⟨m, fun _ => 0, ρ⟩ fun r => ∀ c : Dev nD,
      r.2.mem ((c : Thread nD τ).loc main_v19) = tail (res1 m c) (res2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v19 (Pipeline.mem_restRefs_of main_v19 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Acc

end
-- ==== Proof.Spec.lean ====
/-
  The contrastive loss both programs compute, stated once over coordinates.

  For row vectors z (a node embedding) and g_j (a graph embedding) let u(x) = x / max(eps, |x|) be the row
  scaled to unit length, s_j = <u(z), u(g_j)> the cosine similarity, and jsd(s) = log2 - softplus(-s) the
  positive Jensen-Shannon expectation. With b the node's graph label, a row's divergence difference is
  jsd(s_b) - jsd(c_b) for two similarity rows s, c; the loss is the Euclidean norm over all nodes of that
  difference, summed over the two views.  A label outside [0, 512) selects no column and gives 0.

  Two ways to select column b are related here: summing only the labelled column (select), or multiplying
  the whole row by the one-hot row and summing every column (each of the 511 unlabelled columns then adds
  the same real constant jsd(0) to both sums, which cancels in the difference).
-/
import Idealize.ShloMosaic.PureOps.Ideal
import Idealize.ShloMosaic.PureOps.Ideal.Laws
import Idealize.ShloMosaic.Lib.ValueIdx

noncomputable section

open scoped BigOperators

namespace Cert.Gcl

open Idealize.ShloMosaic

/-- The clip 1e-12, as the f32 word both programs carry. -/
def eps : EReal := Ideal.ofBits .f32 0x2B8CBCCC#32
/-- log 2 rounded to f32, the word both programs carry. -/
def ln2 : EReal := Ideal.ofBits .f32 0x3F317218#32

/-- Euclidean length of a row, clipped below at `eps`. -/
def len {K : ℕ} (x : Fin K → EReal) : EReal := max eps (Ideal.sqrt (∑ k, x k * x k))
/-- The row scaled to unit length. -/
def unit {K : ℕ} (x : Fin K → EReal) : Fin K → EReal := fun k => Ideal.div (x k) (len x)
/-- Dot product of two rows. -/
def dot {K : ℕ} (a b : Fin K → EReal) : EReal := ∑ k, a k * b k
/-- softplus x = max(x, 0) + log(1 + exp(-|x|)). -/
def softplus (x : EReal) : EReal := max x 0 + Ideal.log1p (Ideal.exp (-(max x (-x))))
/-- jsd s = log 2 - softplus(-s). -/
def jsd (s : EReal) : EReal := ln2 - softplus (-s)

/-- Column `j` is the one the label word `b` names. -/
def hit (b : BitVec 32) (j : Fin 512) : Prop := BitVec.ofNat 32 j.val = b
instance (b : BitVec 32) (j : Fin 512) : Decidable (hit b j) := by unfold hit; infer_instance

/-- The labelled column's divergence, selecting it. -/
def pick (b : BitVec 32) (s : Fin 512 → EReal) : EReal := ∑ j, if hit b j then jsd (s j) else 0
/-- The same through the one-hot row: every column's divergence of the masked similarity. -/
def pickOneHot (b : BitVec 32) (s : Fin 512 → EReal) : EReal := ∑ j, jsd (s j * (if hit b j then 1 else 0))

/-- A row's divergence difference between two similarity rows. -/
def rowdiff (b : BitVec 32) (s c : Fin 512 → EReal) : EReal := pick b s - pick b c
def rowdiffOneHot (b : BitVec 32) (s c : Fin 512 → EReal) : EReal := pickOneHot b s - pickOneHot b c

/-- Similarities of a node row against graph rows already of unit length. -/
def simsN (z : Fin 256 → EReal) (gn : Fin 512 → Fin 256 → EReal) : Fin 512 → EReal := fun j => dot (unit z) (gn j)
/-- Similarities of a node row against raw graph rows. -/
def sims (z : Fin 256 → EReal) (g : Fin 512 → Fin 256 → EReal) : Fin 512 → EReal := simsN z (fun j => unit (g j))

/-- A node's divergence difference: own-view graphs `ga` against other-view graphs `gb` (both of unit length). -/
def nodeN (z : Fin 256 → EReal) (b : BitVec 32) (ga gb : Fin 512 → Fin 256 → EReal) : EReal :=
  rowdiff b (simsN z ga) (simsN z gb)

/-- One view's sum of squares over `N` nodes. -/
def sumsqN {N : ℕ} (z : Fin N → Fin 256 → EReal) (b : Fin N → BitVec 32) (ga gb : Fin 512 → Fin 256 → EReal) : EReal :=
  ∑ n, nodeN (z n) (b n) ga gb * nodeN (z n) (b n) ga gb

/-- The loss: the two views' norms added. -/
def loss {N : ℕ} (z1 z2 : Fin N → Fin 256 → EReal) (g1 g2 : Fin 512 → Fin 256 → EReal) (b1 b2 : Fin N → BitVec 32) : EReal :=
  Ideal.sqrt (sumsqN z1 b1 (fun j => unit (g1 j)) (fun j => unit (g2 j)))
    + Ideal.sqrt (sumsqN z2 b2 (fun j => unit (g2 j)) (fun j => unit (g1 j)))

/-- The one-hot forms of the same. -/
def nodeOneHot (z : Fin 256 → EReal) (b : BitVec 32) (ga gb : Fin 512 → Fin 256 → EReal) : EReal :=
  rowdiffOneHot b (simsN z ga) (simsN z gb)
def sumsqOneHot {N : ℕ} (z : Fin N → Fin 256 → EReal) (b : Fin N → BitVec 32) (ga gb : Fin 512 → Fin 256 → EReal) : EReal :=
  ∑ n, nodeOneHot (z n) (b n) ga gb * nodeOneHot (z n) (b n) ga gb
def lossOneHot {N : ℕ} (z1 z2 : Fin N → Fin 256 → EReal) (g1 g2 : Fin 512 → Fin 256 → EReal) (b1 b2 : Fin N → BitVec 32) : EReal :=
  Ideal.sqrt (sumsqOneHot z1 b1 (fun j => unit (g1 j)) (fun j => unit (g2 j)))
    + Ideal.sqrt (sumsqOneHot z2 b2 (fun j => unit (g2 j)) (fun j => unit (g1 j)))

/-! ## Rows padded to a whole number of 256-row tiles

50000 rows are padded with zero rows (and zero labels) to 50176 = 196 * 256. -/

/-- Node rows padded below with zero rows. -/
def padRows (z : Fin 50000 → Fin 256 → EReal) : Fin 50176 → Fin 256 → EReal :=
  fun n k => if h : n.val < 50000 then z ⟨n.val, h⟩ k else 0
/-- Labels padded below with the zero word. -/
def padLabels (b : Fin 50000 → BitVec 32) : Fin 50176 → BitVec 32 :=
  fun n => if h : n.val < 50000 then b ⟨n.val, h⟩ else 0#32
/-- Row `r` of tile `t`. -/
def tileRow (t : Fin 196) (r : Fin 256) : Fin 50176 := ⟨256 * t.val + r.val, by have := t.isLt; have := r.isLt; omega⟩
/-- One tile's sum of squares. -/
def tileSum (zp : Fin 50176 → Fin 256 → EReal) (bp : Fin 50176 → BitVec 32) (ga gb : Fin 512 → Fin 256 → EReal) (t : Fin 196) : EReal :=
  ∑ r : Fin 256, nodeN (zp (tileRow t r)) (bp (tileRow t r)) ga gb * nodeN (zp (tileRow t r)) (bp (tileRow t r)) ga gb

end Cert.Gcl

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRows.lean ====
/-
  Arrays of n rows and c columns read row by row.

  A reduction along the second axis, read at row p, ranges over the columns k of that row: the source index over the
  reduced index (p) with the coordinate k inserted is (p, k). So a kernel's multi_reduction and the host's reduce
  over axis 1 are, at row p, the sum (the largest, the smallest) of the row's entries x (p, k), k : Fin c.
  A unit-stride slice that drops the first or the last column reads the row shifted or unshifted, and a concatenation
  of fifteen columns of shape [n, 1] along axis 1 reads, at (p, j), column j at (p, 0).
-/
import Idealize.ShloMosaic.Lib.ValueIdx
import Idealize.ShloMosaic.Lib.Pipeline.Value
import Idealize.ShloMosaic.PureOps.Ideal.Laws

noncomputable section

open scoped BigOperators

namespace Idealize.ShloMosaic.Rows

open Idealize.ShloMosaic Idealize.ShloMosaic.ValueIdx

variable {n c : ℕ} {φ : FTy}

/-- Over row p, the source index with column k inserted is (p, k). -/
theorem lift_row (h : (⟨2, ![n, c]⟩ : Shape).Reduces [1] ⟨1, ![n]⟩) (p : Fin n) (k : Fin c) :
    h.lift (ix1 p) k = ix2 p k := by
  funext a
  apply Fin.ext
  show h.liftVal (ix1 p) k.val a = _
  match a with
  | ⟨0, _⟩ => simp [Shape.Reduces.liftVal]
  | ⟨1, _⟩ => simp [Shape.Reduces.liftVal]

/-- A kernel's sum along the columns, at row p. -/
theorem mredAdd_row (src : FVec Ideal ⟨2, ![n, c]⟩ φ) (acc : BitVec φ.bits)
    (h : (⟨2, ![n, c]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin c, src (ix2 p k) := by
  rw [Ideal.multiReduction_add_single]
  exact Finset.sum_congr rfl fun k _ => congrArg src (lift_row h p k)

/-- A kernel's maximum along the columns, at row p. -/
theorem mredMax_row (src : FVec Ideal ⟨2, ![n, c]⟩ φ) (acc : BitVec φ.bits)
    (h : (⟨2, ![n, c]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin c)).fold max (Ideal.ofBits φ acc) (fun k => src (ix2 p k)) := by
  rw [Ideal.multiReduction_maximumf_single]
  have e : (src ∘ h.lift (ix1 p)) = fun k : Fin c => src (ix2 p k) := funext fun k => congrArg src (lift_row h p k)
  rw [e]
  rfl

/-- A kernel's minimum along the columns, at row p. -/
theorem mredMin_row (src : FVec Ideal ⟨2, ![n, c]⟩ φ) (acc : BitVec φ.bits)
    (h : (⟨2, ![n, c]⟩ : Shape).Reduces [1] ⟨1, ![n]⟩) (hφ : FKind.Formats φ) (hacc : acc = FKind.minimumf.neutral φ hφ)
    (p : Fin n) :
    multiReduction .minimumf [1] ⟨1, ![n]⟩ src acc h hφ hacc (ix1 p)
      = (Finset.univ : Finset (Fin c)).fold min (Ideal.ofBits φ acc) (fun k => src (ix2 p k)) := by
  rw [multiReduction_minimumf_eq_fold, h.fold_filter_drop_single]
  have e : (src ∘ h.lift (ix1 p)) = fun k : Fin c => src (ix2 p k) := funext fun k => congrArg src (lift_row h p k)
  rw [e]
  rfl

/-- The host's sum along the columns, at row p: the initial value plus the row's sum. -/
theorem hredAdd_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduceAdd x v h' hu (ix1 p) = v (Shape.Idx.first hu) + ∑ k : Fin c, x (ix2 p k) := by
  show Ideal.hostReduceAdd h' x (v (Shape.Idx.first hu)) (ix1 p) = _
  rw [Ideal.hostReduceAdd_single h' h]
  exact congrArg (v (Shape.Idx.first hu) + ·) (Finset.sum_congr rfl fun k _ => congrArg x (lift_row h p k))

/-- The host's maximum along the columns, at row p. -/
theorem hredMax_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.maximumf x v h' hu (ix1 p)
      = (Finset.univ : Finset (Fin c)).fold max (v (Shape.Idx.first hu)) (fun k => x (ix2 p k)) := by
  rw [Host.reduce_eq_fold_single FloatOps.maximumf x v h' h hu]
  have e : (x ∘ h.lift (ix1 p)) = fun k : Fin c => x (ix2 p k) := funext fun k => congrArg x (lift_row h p k)
  rw [e]
  rfl

/-- The host's minimum along the columns, at row p. -/
theorem hredMin_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.minimumf x v h' hu (ix1 p)
      = (Finset.univ : Finset (Fin c)).fold min (v (Shape.Idx.first hu)) (fun k => x (ix2 p k)) := by
  rw [Host.reduce_eq_fold_single FloatOps.minimumf x v h' h hu]
  have e : (x ∘ h.lift (ix1 p)) = fun k : Fin c => x (ix2 p k) := funext fun k => congrArg x (lift_row h p k)
  rw [e]
  rfl

variable {α : Type}

/-- The slice that drops the first column reads the row one to the right. -/
theorem slice_succ (x : (⟨2, ![n, c + 1]⟩ : Shape).Idx → α)
    (h : (⟨2, ![n, c + 1]⟩ : Shape).Slices ![0, 1] ⟨2, ![n, c]⟩) (p : Fin n) (k : Fin c) :
    extractStridedSlice ⟨2, ![n, c]⟩ ![0, 1] x h (ix2 p k) = x (ix2 p k.succ) :=
  extractStridedSlice_apply _ x h _ _ fun a => by
    match a with
    | ⟨0, _⟩ => show p.val = 0 + p.val; omega
    | ⟨1, _⟩ => show k.val + 1 = 1 + k.val; omega

/-- The slice that drops the last column reads the row in place. -/
theorem slice_castSucc (x : (⟨2, ![n, c + 1]⟩ : Shape).Idx → α)
    (h : (⟨2, ![n, c + 1]⟩ : Shape).Slices ![0, 0] ⟨2, ![n, c]⟩) (p : Fin n) (k : Fin c) :
    extractStridedSlice ⟨2, ![n, c]⟩ ![0, 0] x h (ix2 p k) = x (ix2 p k.castSucc) :=
  extractStridedSlice_apply _ x h _ _ fun a => by
    match a with
    | ⟨0, _⟩ => show p.val = 0 + p.val; omega
    | ⟨1, _⟩ => show k.val = 0 + k.val; omega

/-- Fifteen columns [n, 1] laid side by side: entry (p, j) is column j at (p, 0). -/
theorem concat15_apply (f : Fin 15 → ((⟨2, ![n, 1]⟩ : Shape).Idx → α))
    (h : Shape.Concatenates ((List.ofFn fun i : Fin 15 => (⟨⟨2, ![n, 1]⟩, f i⟩ : (s : Shape) × (s.Idx → α))).map (·.1))
      ⟨2, ![n, 15]⟩ 1)
    (p : Fin n) (j : Fin 15) :
    concatenate ⟨2, ![n, 15]⟩ 1 (List.ofFn fun i : Fin 15 => (⟨⟨2, ![n, 1]⟩, f i⟩ : (s : Shape) × (s.Idx → α))) h (ix2 p j)
      = f j (ix2 p (0 : Fin 1)) :=
  concatenate_ofFn_unit_apply (t := ⟨2, ![n, 15]⟩) (s₁ := ⟨2, ![n, 1]⟩) 1 f h rfl rfl (ix2 p j) j rfl (ix2 p (0 : Fin 1))
    (fun b hb => by
      match b with
      | ⟨0, _⟩ => rfl
      | ⟨1, _⟩ => exact absurd rfl hb)

end Idealize.ShloMosaic.Rows

end
-- ==== Proof.LibColumn.lean ====
/-
  A vector of length `a` laid out as a column `[a, 1]`, read at an index.

  Two host operations produce the same column from a vector `x`: a reshape `[a] → [a, 1]` (row-major position
  `i * 1 + 0 = i`) and a `broadcast_in_dim` along axis `0` into `[a, 1]` (the new axis has extent one, so nothing is
  repeated). Both read `x i` at `(i, u)`, whatever the unit coordinate `u`; hence the two columns are equal as arrays.
  A column broadcast along its unit axis to `[a, b]` (the kernel-side `vector.broadcast`, the host's
  `broadcast_in_dim` along both axes) reads the column at `(i, 0)`.
-/
import Idealize.ShloMosaic.Lib.ValueIdx
import Idealize.ShloMosaic.Lib.Pipeline.Value

namespace Idealize.ShloMosaic.Column

open Idealize.ShloMosaic Idealize.ShloMosaic.ValueIdx

variable {α : Type}

/-- The reshape `[a] → [a, 1]` at `(i, u)` is the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `broadcast_in_dim` of a vector along axis `0` into `[a, 1]`, at `(i, u)`, is the vector at `i`
    (for `a ≠ 1`; the extent-one case reads index `0`, which is again `i`). -/
theorem broadcastInDim_a_a1_apply {a : ℕ} (x : (⟨1, ![a]⟩ : Shape).Idx → α)
    (dims : Fin 1 → Fin 2) (hd : dims 0 = 0)
    (h : (⟨1, ![a]⟩ : Shape).BroadcastsInDim ⟨2, ![a, 1]⟩ dims)
    (i : Fin a) (u : Fin 1) : broadcastInDim ⟨2, ![a, 1]⟩ dims h x (ix2 i u) = x (ix1 i) := by
  refine broadcastInDim_apply dims h x (ix2 i u) (ix1 i) ?_
  intro d
  match d with
  | ⟨0, _⟩ =>
    show i.val = if a = 1 then 0 else ((ix2 i u : (⟨2, ![a, 1]⟩ : Shape).Idx) (dims 0)).val
    rw [hd]
    by_cases h1 : a = 1
    · rw [if_pos h1]; have := i.isLt; omega
    · rw [if_neg h1]

/-- So the two columns are one array. -/
theorem shapeCast_eq_broadcastInDim {a : ℕ} (x : (⟨1, ![a]⟩ : Shape).Idx → α)
    (hs : (⟨1, ![a]⟩ : Shape).ShapeCasts ⟨2, ![a, 1]⟩)
    (dims : Fin 1 → Fin 2) (hd : dims 0 = 0)
    (hb : (⟨1, ![a]⟩ : Shape).BroadcastsInDim ⟨2, ![a, 1]⟩ dims) :
    shapeCast ⟨2, ![a, 1]⟩ x hs = broadcastInDim ⟨2, ![a, 1]⟩ dims hb x := by
  funext j
  obtain ⟨p, q, rfl⟩ : ∃ (p : Fin a) (q : Fin 1), j = ix2 p q := ⟨j 0, j 1, eq_ix2 j⟩
  rw [shapeCast_a_a1_apply, broadcastInDim_a_a1_apply x dims hd]

/-- A column `[a, 1]` broadcast to `[a, b]` (a kernel's `vector.broadcast`) reads, at `(i, j)`, the column at `(i, 0)`
    (for `a ≠ 1`). -/
theorem broadcastTo_a1_ab_apply {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) ?_
  intro d
  match d with
  | ⟨0, _⟩ => show i.val = if a = 1 then 0 else i.val; rw [if_neg ha]
  | ⟨1, _⟩ => show 0 = if (1 : ℕ) = 1 then 0 else j.val; rw [if_pos rfl]

/-- The host's `broadcast_in_dim` of a column `[a, 1]` along both axes into `[a, b]` reads the same (for `a ≠ 1`). -/
theorem broadcastInDim_a1_ab_apply {a b : ℕ} (ha : a ≠ 1) (x : (⟨2, ![a, 1]⟩ : Shape).Idx → α)
    (dims : Fin 2 → Fin 2) (hd0 : dims 0 = 0) (hd1 : dims 1 = 1)
    (h : (⟨2, ![a, 1]⟩ : Shape).BroadcastsInDim ⟨2, ![a, b]⟩ dims) (i : Fin a) (j : Fin b) :
    broadcastInDim ⟨2, ![a, b]⟩ dims h x (ix2 i j) = x (ix2 i (0 : Fin 1)) := by
  refine broadcastInDim_apply dims h x (ix2 i j) (ix2 i (0 : Fin 1)) ?_
  intro d
  match d with
  | ⟨0, _⟩ =>
    show i.val = if a = 1 then 0 else ((ix2 i j : (⟨2, ![a, b]⟩ : Shape).Idx) (dims 0)).val
    rw [hd0, if_neg ha]
  | ⟨1, _⟩ =>
    show 0 = if (1 : ℕ) = 1 then 0 else ((ix2 i j : (⟨2, ![a, b]⟩ : Shape).Idx) (dims 1)).val
    rw [if_pos rfl]

end Idealize.ShloMosaic.Column
-- ==== Proof.SimBlocks.lean ====
/-
  The kernel's four similarity blocks at an entry: row r of the node block scaled to unit length, dotted with
  row j of the (already unit-length) graph block.
-/
import proofs.«163930_j49959059587771_1_alg».proof.Proof.Spec
import proofs.«163930_j49959059587771_1_alg».proof.Proof.LibPlainDot
import proofs.«163930_j49959059587771_1_alg».proof.Proof.LibRows
import proofs.«163930_j49959059587771_1_alg».proof.Proof.LibColumn
import proofs.«163930_j49959059587771_1_alg».proof.Proof.Gen.KernelIdeal.Skeleton

noncomputable section

open scoped BigOperators

namespace Cert.KernelIdeal.Sim

open Cert.KernelIdeal Cert.KernelIdeal.Gen Idealize.ShloMosaic Idealize.ShloMosaic.ValueIdx

/-- The kernel's chain for a 256×256 block, at entry (r, k): the entry divided by the row's length, the length being
    the square root of the row's sum of squares, clipped below at eps. -/
theorem unit_chain (x : Vec Ideal S256x256 .f32)
    (hc : S256x256.ShapeCasts S256x256) (hr : S256x256.Reduces [1] S256) (hs : S256.ShapeCasts S256x1)
    (hb : S256x1.Broadcasts S256x256) (r k : Fin 256) :
    (truncf .bf16 (divf (shapeCast S256x256 x hc)
      (broadcastTo S256x256 (maximumf (sqrt (shapeCast S256x1
        (multiReduction .add [1] S256 (mulf (shapeCast S256x256 x hc) (shapeCast S256x256 x hc)) 0x00000000#32 hr (.inl rfl) rfl) hs))
        (broadcast S256x1 (Scalar.ofBits (F := Ideal) .f32 0x2B8CBCCC#32))) hb)) (by decide) : FVec Ideal S256x256 .bf16) (ix2 r k)
      = Cert.Gcl.unit (fun k => x (ix2 r k)) k := by
  -- the cast to the same shape is the identity
  rw [shapeCast_self]
  -- entry (r, k) of the quotient reads the column of lengths at (r, 0)
  rw [truncf_apply, divf_apply, Column.broadcastTo_a1_ab_apply (by decide), maximumf_apply]
  show Ideal.div (x (ix2 r k)) (max (Ideal.sqrt (shapeCast S256x1 _ hs (ix2 r (0 : Fin 1)))) (Ideal.ofBits .f32 0x2B8CBCCC#32)) = _
  -- the column at (r, 0) is the vector of row sums at r, the sum over the row's entries squared
  rw [Column.shapeCast_a_a1_apply]
  have h1 := Rows.mredAdd_row (n := 256) (c := 256) (mulf x x) 0x00000000#32 hr (.inl rfl) rfl r
  rw [h1]
  unfold Cert.Gcl.unit Cert.Gcl.len Cert.Gcl.eps
  -- max (sqrt s) eps = max eps (sqrt s)
  rw [max_comm]
  rfl

/-- The node block scaled row by row to unit length. -/
theorem unit_block (x : Vec Ideal S256x256 .f32) (r k : Fin 256) :
    k0_pay5 (F := Ideal) x (ix2 r k) = Cert.Gcl.unit (fun k => x (ix2 r k)) k := by
  exact unit_chain x _ _ _ _ r k

theorem unit_block' (x : Vec Ideal S256x256 .f32) (r k : Fin 256) :
    k0_pay6 (F := Ideal) x (ix2 r k) = Cert.Gcl.unit (fun k => x (ix2 r k)) k := by
  exact unit_chain x _ _ _ _ r k

/-- The printed dimension numbers are those of the plain 256×256 by 256×512 product. -/
theorem dot_eq_plain : dot_S256x256_S256x512_S256x512_1_0_0_1_n_n = DotDims.plain 256 256 512 := rfl

/-- A left block against a stored graph block transposed, into the zero accumulator, at entry (r, j): the dot of the
    left block's row r with the stored block's row j. -/
theorem sim_chain (L : FVec Ideal S256x256 .bf16) (g : FVec Ideal S512x256 .f32)
    (hc : S512x256.ShapeCasts S512x256) (hlt : FTy.bf16.bits < FTy.f32.bits)
    (ht : S512x256.Transposes [1, 0] S256x512) (r : Fin 256) (j : Fin 512) :
    matmul dot_S256x256_S256x512_S256x512_1_0_0_1_n_n none L
      (transpose S256x512 [1, 0] (truncf (φ := .f32) .bf16 (shapeCast S512x256 g hc) hlt) ht)
      (constant S256x512 .f32 0x00000000#32) (ix2 r j)
      = ∑ k : Fin 256, L (ix2 r k) * g (ix2 j k) := by
  rw [shapeCast_self, dot_eq_plain]
  exact Cert.PlainDot.matmul_zero_transposed_apply (M := 256) (K := 256) (N := 512) none L
    (truncf (φ := .f32) .bf16 g hlt) ht r j

/-- Entry (r, j) of each similarity block. -/
theorem sim9 (x0 : Vec Ideal S256x256 .f32) (x2 : Vec Ideal S512x256 .f32) (r : Fin 256) (j : Fin 512) :
    k0_pay9 (F := Ideal) x0 x2 (ix2 r j) = Cert.Gcl.simsN (fun k => x0 (ix2 r k)) (fun j k => x2 (ix2 j k)) j := by
  refine (sim_chain (k0_pay5 x0) x2 _ _ _ r j).trans ?_
  unfold Cert.Gcl.simsN Cert.Gcl.dot
  exact Finset.sum_congr rfl fun k _ => by rw [unit_block]

theorem sim10 (x0 : Vec Ideal S256x256 .f32) (x3 : Vec Ideal S512x256 .f32) (r : Fin 256) (j : Fin 512) :
    k0_pay10 (F := Ideal) x0 x3 (ix2 r j) = Cert.Gcl.simsN (fun k => x0 (ix2 r k)) (fun j k => x3 (ix2 j k)) j := by
  refine (sim_chain (k0_pay5 x0) x3 _ _ _ r j).trans ?_
  unfold Cert.Gcl.simsN Cert.Gcl.dot
  exact Finset.sum_congr rfl fun k _ => by rw [unit_block]

theorem sim11 (x1 : Vec Ideal S256x256 .f32) (x3 : Vec Ideal S512x256 .f32) (r : Fin 256) (j : Fin 512) :
    k0_pay11 (F := Ideal) x1 x3 (ix2 r j) = Cert.Gcl.simsN (fun k => x1 (ix2 r k)) (fun j k => x3 (ix2 j k)) j := by
  refine (sim_chain (k0_pay6 x1) x3 _ _ _ r j).trans ?_
  unfold Cert.Gcl.simsN Cert.Gcl.dot
  exact Finset.sum_congr rfl fun k _ => by rw [unit_block']

theorem sim12 (x1 : Vec Ideal S256x256 .f32) (x2 : Vec Ideal S512x256 .f32) (r : Fin 256) (j : Fin 512) :
    k0_pay12 (F := Ideal) x1 x2 (ix2 r j) = Cert.Gcl.simsN (fun k => x1 (ix2 r k)) (fun j k => x2 (ix2 j k)) j := by
  refine (sim_chain (k0_pay6 x1) x2 _ _ _ r j).trans ?_
  unfold Cert.Gcl.simsN Cert.Gcl.dot
  exact Finset.sum_congr rfl fun k _ => by rw [unit_block']

end Cert.KernelIdeal.Sim

end
-- ==== Proof.LibRank1.lean ====
/-
  Rank-1 index sets and columns.

  A rank-1 index set is its one coordinate range, so a sum over it is a sum over that coordinate; a vector of length
  a viewed as an a x 1 column has, at (i, 0), the vector's entry i (the two have the same row-major position i);
  and a 1 x 1 array viewed as a scalar has, at the scalar shape's one index, the array's one entry.
-/
import Idealize.ShloMosaic.Lib.ValueIdx
import Idealize.ShloMosaic.Lib.Pipeline.Value

noncomputable section

namespace Cert.LibRank1

open Idealize.ShloMosaic Idealize.ShloMosaic.ValueIdx

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- An `[a]` vector cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array cast to a scalar reads, at the scalar's one index, the array's one entry. -/
theorem shapeCast_11_scalar_apply {α : Type} (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) :=
  shapeCast_apply x h _ _ (by
    have h0 := ((⟨0, ![]⟩ : Shape).rowMajor j).isLt
    have h1 : (⟨0, ![]⟩ : Shape).numel = 1 := by decide
    rw [Shape.rowMajor_val_two]
    show 0 * 1 + 0 = _
    omega)

end Cert.LibRank1

end
-- ==== Proof.TileSums.lean ====
/-
  One tile's contribution to each accumulator: the accumulator's old entry plus the sum over the tile's 256 rows
  of the squared divergence difference, the labelled column selected by comparing the column number with the label.
-/
import proofs.«163930_j49959059587771_1_alg».proof.Proof.Spec
import proofs.«163930_j49959059587771_1_alg».proof.Proof.LibRows
import proofs.«163930_j49959059587771_1_alg».proof.Proof.LibColumn
import proofs.«163930_j49959059587771_1_alg».proof.Proof.LibRank1
import proofs.«163930_j49959059587771_1_alg».proof.Proof.Gen.KernelIdeal.Skeleton

noncomputable section

open scoped BigOperators

namespace Cert.KernelIdeal.Tile

open Cert.KernelIdeal Cert.KernelIdeal.Gen Idealize.ShloMosaic Idealize.ShloMosaic.ValueIdx

/-! ## The operations read at one coordinate -/

/-- Comparing a value with itself for "differs" gives the bit 0. -/
theorem cmp_one_self (y : EReal) : Ideal.cmp .one y y = 0#1 := by
  simp [Ideal.cmp]

/-- A select on a decided bit is the conditional. -/
theorem select_ite {α : Type} (p : Prop) [Decidable p] (a b : α) :
    Scalar.select (if p then 1#1 else 0#1) a b = if p then a else b := by
  by_cases h : p
  · rw [if_pos h, if_pos h, select_one]
  · rw [if_neg h, if_neg h, select_zero]

/-- The program's softplus of 0 - x, on one entry: the guard y ≠ y never holds, so the value is
    max(-x, 0) + log(1 + exp(-|-x|)). -/
theorem softplus_word (x : EReal) :
    Scalar.select (Ideal.cmp .one (0 - x - 0) (0 - x - 0)) (0 - x + 0)
      (max (0 - x) 0 + Ideal.log1p (Ideal.exp (0 - max (0 - x - 0) (-(0 - x - 0))))) = Cert.Gcl.softplus (-x) := by
  rw [cmp_one_self, select_zero, sub_zero, zero_sub, zero_sub]
  rfl

/-- The softplus block at an entry. -/
theorem pay16_apply (v : FVec Ideal S256x512 .f32) (i : S256x512.Idx) :
    k0_pay16 (F := Ideal) v i = Cert.Gcl.softplus (-(v i)) := by
  have h0 : (Scalar.ofBits .f32 0x00000000#32 : Ideal .f32) = 0 := Ideal.ofBits_zero_f32
  unfold k0_pay16
  simp only [select_apply, cmpf_apply, subf_apply, addf_apply, maximumf_apply, broadcast_apply, h0]
  exact softplus_word (v i)

/-- The first mask at (r, j): column j is the one row r's label names. -/
theorem pay13_apply (x4 : Vec Ideal S256x1 .i32) (r : Fin 256) (j : Fin 512) :
    k0_pay13 (F := Ideal) x4 (ix2 r j) = if Cert.Gcl.hit (x4 (ix2 r 0)) j then 1#1 else 0#1 := by
  unfold k0_pay13
  rw [shapeCast_self]
  show IntOp.cmpi .eq (iota .tc S256x512 32 [1] _ (ix2 r j)) (broadcastTo S256x512 x4 _ (ix2 r j)) = _
  rw [iota_single_apply, Column.broadcastTo_a1_ab_apply (by decide)]
  show BitVec.ofBool (BitVec.ofNat 32 j.val == x4 (ix2 r 0)) = _
  by_cases h : Cert.Gcl.hit (x4 (ix2 r 0)) j
  · rw [if_pos h, beq_iff_eq.mpr (show BitVec.ofNat 32 j.val = x4 (ix2 r 0) from h)]; rfl
  · rw [if_neg h, beq_eq_false_iff_ne.mpr (show BitVec.ofNat 32 j.val ≠ x4 (ix2 r 0) from h)]; rfl

/-- The second mask at (r, j), the same. -/
theorem pay14_apply (x5 : Vec Ideal S256x1 .i32) (r : Fin 256) (j : Fin 512) :
    k0_pay14 (F := Ideal) x5 (ix2 r j) = if Cert.Gcl.hit (x5 (ix2 r 0)) j then 1#1 else 0#1 := by
  unfold k0_pay14
  rw [shapeCast_self]
  show IntOp.cmpi .eq (iota .tc S256x512 32 [1] _ (ix2 r j)) (broadcastTo S256x512 x5 _ (ix2 r j)) = _
  rw [iota_single_apply, Column.broadcastTo_a1_ab_apply (by decide)]
  show BitVec.ofBool (BitVec.ofNat 32 j.val == x5 (ix2 r 0)) = _
  by_cases h : Cert.Gcl.hit (x5 (ix2 r 0)) j
  · rw [if_pos h, beq_iff_eq.mpr (show BitVec.ofNat 32 j.val = x5 (ix2 r 0) from h)]; rfl
  · rw [if_neg h, beq_eq_false_iff_ne.mpr (show BitVec.ofNat 32 j.val ≠ x5 (ix2 r 0) from h)]; rfl

/-! ## A row's labelled-column sum -/

/-- With a mask that marks, on row r, the column the label b names: the row sum of the masked divergences
    log 2 - softplus(-v), cast to a column, is at (r, 0) the labelled column's divergence. -/
theorem pickRow (mask : IVec S256x512 1) (b : BitVec 32) (v : FVec Ideal S256x512 .f32) (r : Fin 256)
    (hm : ∀ j : Fin 512, mask (ix2 r j) = if Cert.Gcl.hit b j then 1#1 else 0#1) :
    shapeCast S256x1 (multiReduction .add [1] S256
      (select mask
        (subf (broadcast S256x512 (Scalar.ofBits .f32 0x3F317218#32)) (k0_pay16 (F := Ideal) v))
        (broadcast S256x512 (Scalar.ofBits .f32 0x00000000#32)))
      0x00000000#32 reduces_S256x512_S256 (.inl rfl) rfl) shapeCasts_S256_S256x1 (ix2 r 0)
      = Cert.Gcl.pick b (fun j => v (ix2 r j)) := by
  rw [Column.shapeCast_a_a1_apply]
  refine (Rows.mredAdd_row (n := 256) (c := 512) _ _ _ _ _ r).trans ?_
  unfold Cert.Gcl.pick
  refine Finset.sum_congr rfl fun j _ => ?_
  rw [select_apply, hm j, select_ite, subf_apply, broadcast_apply, broadcast_apply, pay16_apply,
    show (Scalar.ofBits .f32 0x00000000#32 : Ideal .f32) = 0 from Ideal.ofBits_zero_f32]
  rfl

/-- The self row's labelled divergence, first view. -/
theorem pay15_apply (v32 : FVec Ideal S256x512 .f32) (x4 : Vec Ideal S256x1 .i32) (r : Fin 256) :
    k0_pay15 (F := Ideal) v32 x4 (ix2 r 0) = Cert.Gcl.pick (x4 (ix2 r 0)) (fun j => v32 (ix2 r j)) :=
  pickRow (k0_pay13 (F := Ideal) x4) (x4 (ix2 r 0)) v32 r (pay13_apply x4 r)

/-- The self row's labelled divergence, second view. -/
theorem pay18_apply (v36 : FVec Ideal S256x512 .f32) (x5 : Vec Ideal S256x1 .i32) (r : Fin 256) :
    k0_pay18 (F := Ideal) v36 (k0_pay14 (F := Ideal) x5) (ix2 r 0)
      = Cert.Gcl.pick (x5 (ix2 r 0)) (fun j => v36 (ix2 r j)) :=
  pickRow (k0_pay14 (F := Ideal) x5) (x5 (ix2 r 0)) v36 r (pay14_apply x5 r)

/-- The first view's difference column at row r. -/
theorem pay17_apply (v32 v34 : FVec Ideal S256x512 .f32) (x4 : Vec Ideal S256x1 .i32) (r : Fin 256) :
    k0_pay17 (F := Ideal) (k0_pay13 (F := Ideal) x4) (k0_pay15 v32 x4) (k0_pay16 v34)
        (Scalar.ofBits .f32 0x3F317218#32) (ix2 r 0)
      = Cert.Gcl.rowdiff (x4 (ix2 r 0)) (fun j => v32 (ix2 r j)) (fun j => v34 (ix2 r j)) := by
  show k0_pay15 (F := Ideal) v32 x4 (ix2 r 0) - _ = _
  rw [pay15_apply]
  exact congrArg (Cert.Gcl.pick (x4 (ix2 r 0)) (fun j => v32 (ix2 r j)) - ·)
    (pickRow (k0_pay13 (F := Ideal) x4) (x4 (ix2 r 0)) v34 r (pay13_apply x4 r))

/-! ## The accumulator update -/

/-- Over the one result index, the source index with row k inserted is (k, 0). -/
theorem lift_col {n : ℕ} (h : (⟨2, ![n, 1]⟩ : Shape).Reduces [0] ⟨1, ![1]⟩) (k : Fin n) :
    h.lift (ix1 (0 : Fin 1)) k = ix2 k (0 : Fin 1) := by
  funext a
  apply Fin.ext
  show h.liftVal (ix1 (0 : Fin 1)) k.val a = _
  match a with
  | ⟨0, _⟩ => simp [Shape.Reduces.liftVal]
  | ⟨1, _⟩ => simp [Shape.Reduces.liftVal]

/-- The old entry plus the sum of the squares of the column. -/
theorem pay1_eq (d : FVec Ideal S256x1 .f32) (acc : Vec Ideal S1x1 .f32) :
    k0_pay1 (F := Ideal) d acc = fun _ => acc (ix2 0 0) + ∑ r : Fin 256, d (ix2 r 0) * d (ix2 r 0) := by
  show shapeCast S1x1 (addf acc (shapeCast S1x1 (multiReduction .add [0] S1 (mulf d d) 0x00000000#32
      reduces_S256x1_S1 (.inl rfl) rfl) shapeCasts_S1_S1x1)) shapeCasts_S1x1_S1x1 = _
  rw [shapeCast_self]
  funext i
  obtain ⟨p, q, rfl⟩ : ∃ (p : Fin 1) (q : Fin 1), i = ix2 p q := ⟨i 0, i 1, eq_ix2 i⟩
  obtain rfl : p = 0 := Subsingleton.elim _ _
  obtain rfl : q = 0 := Subsingleton.elim _ _
  rw [addf_apply, Column.shapeCast_a_a1_apply]
  refine congrArg (acc (ix2 0 0) + ·) ?_
  refine (Ideal.multiReduction_add_single (s := S256x1) (t := S1) (a := 0) (mulf d d) _ reduces_S256x1_S1 _ _ (ix1 0)).trans ?_
  exact Finset.sum_congr rfl fun k _ => congrArg (mulf d d) (lift_col reduces_S256x1_S1 k)

/-- First view: what the body stores into the first accumulator. -/
theorem acc1 (v32 v34 : FVec Ideal S256x512 .f32) (x4 : Vec Ideal S256x1 .i32) (acc : Vec Ideal S1x1 .f32) :
    k0_pay1 (F := Ideal) (k0_pay17 (k0_pay13 (F := Ideal) x4) (k0_pay15 v32 x4) (k0_pay16 v34) (Scalar.ofBits .f32 0x3F317218#32)) acc
      = fun _ => acc (ix2 0 0) + ∑ r : Fin 256,
          Cert.Gcl.rowdiff (x4 (ix2 r 0)) (fun j => v32 (ix2 r j)) (fun j => v34 (ix2 r j))
            * Cert.Gcl.rowdiff (x4 (ix2 r 0)) (fun j => v32 (ix2 r j)) (fun j => v34 (ix2 r j)) := by
  rw [pay1_eq]
  funext _
  refine congrArg (acc (ix2 0 0) + ·) (Finset.sum_congr rfl fun r _ => ?_)
  rw [pay17_apply]

/-- Second view: what the body stores into the second accumulator. -/
theorem acc2 (v36 v38 : FVec Ideal S256x512 .f32) (x5 : Vec Ideal S256x1 .i32) (acc : Vec Ideal S1x1 .f32) :
    k0_pay2 (F := Ideal) (k0_pay14 (F := Ideal) x5) (k0_pay18 v36 (k0_pay14 (F := Ideal) x5)) (k0_pay19 v38) (Scalar.ofBits .f32 0x00000000#32) acc
      = fun _ => acc (ix2 0 0) + ∑ r : Fin 256,
          Cert.Gcl.rowdiff (x5 (ix2 r 0)) (fun j => v36 (ix2 r j)) (fun j => v38 (ix2 r j))
            * Cert.Gcl.rowdiff (x5 (ix2 r 0)) (fun j => v36 (ix2 r j)) (fun j => v38 (ix2 r j)) := by
  show k0_pay1 (F := Ideal) (subf (k0_pay18 v36 (k0_pay14 (F := Ideal) x5))
      (shapeCast S256x1 (multiReduction .add [1] S256
        (select (k0_pay14 (F := Ideal) x5)
          (subf (broadcast S256x512 (Scalar.ofBits .f32 0x3F317218#32)) (k0_pay16 (F := Ideal) v38))
          (broadcast S256x512 (Scalar.ofBits .f32 0x00000000#32)))
        0x00000000#32 reduces_S256x512_S256 (.inl rfl) rfl) shapeCasts_S256_S256x1)) acc = _
  rw [pay1_eq]
  funext _
  refine congrArg (acc (ix2 0 0) + ·) (Finset.sum_congr rfl fun r _ => ?_)
  rw [subf_apply, pay18_apply, pickRow (k0_pay14 (F := Ideal) x5) (x5 (ix2 r 0)) v38 r (pay14_apply x5 r)]
  rfl

end Cert.KernelIdeal.Tile

end
-- ==== Proof.HostArrays.lean ====
/-
  What the region finds in its six input arrays, read through each window's block at a grid point:
  the node rows padded with zero rows, tile t holding rows 256 t .. 256 t + 255; the labels as a column padded
  with zero words; the graph rows scaled to unit length by the host, each window's block the whole array.
-/
import proofs.«163930_j49959059587771_1_alg».proof.Proof.Spec
import proofs.«163930_j49959059587771_1_alg».proof.Proof.Blocks
import proofs.«163930_j49959059587771_1_alg».proof.Proof.LibRows
import proofs.«163930_j49959059587771_1_alg».proof.Proof.LibColumn
import proofs.«163930_j49959059587771_1_alg».proof.Proof.LibRank1
import Idealize.ShloMosaic.Lib.StableHlo.Run
import Idealize.ShloMosaic.Lib.KernelVsHost

noncomputable section

open scoped BigOperators

namespace Cert.KernelIdeal.HostArrays

open Cert.KernelIdeal Cert.KernelIdeal.Gen Cert.KernelIdeal.Blocks Idealize.ShloMosaic Idealize.ShloMosaic.TcCoe Idealize.SL.Sem Idealize.ShloMosaic.ValueIdx

variable (m : (ℓ : Loc nD τ sig) → Buf (Elt Ideal) ℓ)

/-! ## The node rows: 50000 rows followed by 176 zero rows, cut into 196 tiles of 256 rows -/

/-- The padded node array read at row n, column k: the row itself below 50000, zero from there on
    (the padding value is the integer zero converted, which is the real zero). -/
theorem padRows_apply (x : S50000x256.Idx → EReal) (n : Fin 50176) (k : Fin 256) :
    pad S50176x256 ![0, 0] ![176, 0] ![0, 0] x
        (sitofp (F := Ideal) .f32 (constantI S_ 32 0#32)) pads_S50000x256_S50176x256_01760_000 h_S_ (ix2 n k)
      = Cert.Gcl.padRows (fun n k => x (ix2 n k)) n k := by
  unfold Cert.Gcl.padRows
  by_cases h : n.val < 50000
  · rw [dif_pos h]
    refine pad_apply_of_inside _ _ _ x _ _ _ (ix2 n k) (ix2 (⟨n.val, h⟩ : Fin 50000) k) ?_
    intro a
    match a with
    | ⟨0, _⟩ => show n.val = 0 + n.val * (0 + 1); omega
    | ⟨1, _⟩ => show k.val = 0 + k.val * (0 + 1); omega
  · rw [dif_neg h]
    refine (pad_apply_of_not_inside _ _ _ x _ _ _ (ix2 n k) (0 : Fin 2) ?_).trans ?_
    · intro hin
      have h3 : (n.val - 0) / (0 + 1) < 50000 := hin.2.2
      omega
    · exact sitofp_zero (φ := .f32)

/-- The first view's node tiles: point t reads block row t, block column 0. -/
theorem idx_z1 : ∀ t : Fin cfg0.N, win0_0.index t 0 = t.val ∧ win0_0.index t 1 = 0 :=
  (by decide +kernel : ∀ t : Fin grid0.N, win0_0.index t 0 = t.val ∧ win0_0.index t 1 = 0)

/-- The second view's node tiles: the same. -/
theorem idx_z2 : ∀ t : Fin cfg0.N, win0_1.index t 0 = t.val ∧ win0_1.index t 1 = 0 :=
  (by decide +kernel : ∀ t : Fin grid0.N, win0_1.index t 0 = t.val ∧ win0_1.index t 1 = 0)

/-- The first view's node array as the region finds it: the argument padded below with zero rows. -/
theorem z1arr_eq (c : Dev nD) :
    (V m c main_v10 : S50176x256.Idx → EReal)
      = pad S50176x256 ![0, 0] ![176, 0] ![0, 0] (m ((c : Thread nD τ).loc main_arg0))
          (sitofp (F := Ideal) .f32 (constantI S_ 32 0#32)) pads_S50000x256_S50176x256_01760_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results
  rfl

/-- The second view's node array as the region finds it. -/
theorem z2arr_eq (c : Dev nD) :
    (V m c main_v11 : S50176x256.Idx → EReal)
      = pad S50176x256 ![0, 0] ![176, 0] ![0, 0] (m ((c : Thread nD τ).loc main_arg1))
          (sitofp (F := Ideal) .f32 (constantI S_ 32 0#32)) pads_S50000x256_S50176x256_01760_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results
  rfl

/-! ## The graph rows: each of the 512 rows divided by its clipped Euclidean length; every point sees all of them -/

/-- Each graph row's sum of squares, as the host computes it (initial value the zero word). -/
def rowSumsq (x : S512x256.Idx → EReal) : S512.Idx → EReal :=
  Host.reduceAdd (F := Ideal) (φ := .f32) (mulf (F := Ideal) (φ := .f32) x x) (constant (F := Ideal) S_ .f32 0x00000000#32)
    reducesTo_S512x256_S512_d1 h_S_

/-- Each graph row's clipped length, as a column. -/
def rowLens (x : S512x256.Idx → EReal) : S512x1.Idx → EReal :=
  maximumf (F := Ideal)
    (broadcastInDim S512x1 ![] bcast_S_S512x1 (id (constant (F := Ideal) S_ .f32 0x2B8CBCCC#32)) : FVec Ideal S512x1 .f32)
    (Host.sqrt (F := Ideal) (broadcastInDim S512x1 ![0] bcast_S512_S512x1_0 (rowSumsq x) : FVec Ideal S512x1 .f32))

/-- The graph rows divided by their clipped lengths. -/
def unitRows (x : S512x256.Idx → EReal) : S512x256.Idx → EReal :=
  Host.divf (F := Ideal) (φ := .f32) x (broadcastInDim S512x256 ![0, 1] bcast_S512x1_S512x256_0_1 (rowLens x))

/-- Row j's sum of squares: zero plus the sum over the row's columns. -/
theorem rowSumsq_apply (x : S512x256.Idx → EReal) (j : Fin 512) :
    rowSumsq x (ix1 j) = ∑ k : Fin 256, x (ix2 j k) * x (ix2 j k) := by
  unfold rowSumsq
  rw [Rows.hredAdd_row _ _ _ (by decide) _ j]
  show Ideal.ofBits .f32 0x00000000#32 + ∑ k : Fin 256, x (ix2 j k) * x (ix2 j k) = _
  rw [Ideal.ofBits_zero_f32, zero_add]

/-- Row j's clipped length. -/
theorem rowLens_apply (x : S512x256.Idx → EReal) (j : Fin 512) :
    rowLens x (ix2 j (0 : Fin 1)) = Cert.Gcl.len (fun k => x (ix2 j k)) := by
  unfold rowLens
  show max (Ideal.ofBits .f32 0x2B8CBCCC#32)
      (Ideal.sqrt (broadcastInDim S512x1 ![0] bcast_S512_S512x1_0 (rowSumsq x) (ix2 j (0 : Fin 1)))) = _
  rw [Column.broadcastInDim_a_a1_apply (rowSumsq x) ![0] rfl bcast_S512_S512x1_0 j 0, rowSumsq_apply]
  rfl

/-- Entry (j, k) of the scaled rows is row j at unit length, at k. -/
theorem unitRows_apply (x : S512x256.Idx → EReal) (j : Fin 512) (k : Fin 256) :
    unitRows x (ix2 j k) = Cert.Gcl.unit (fun k => x (ix2 j k)) k := by
  unfold unitRows
  show Ideal.div (x (ix2 j k))
      (broadcastInDim S512x256 ![0, 1] bcast_S512x1_S512x256_0_1 (rowLens x) (ix2 j k)) = _
  rw [Column.broadcastInDim_a1_ab_apply (by decide) (rowLens x) ![0, 1] rfl rfl bcast_S512x1_S512x256_0_1 j k,
    rowLens_apply]
  rfl

/-- The first view's graph window: every point reads block (0, 0), the whole array. -/
theorem idx_g1 : ∀ t : Fin cfg0.N, win0_2.index t 0 = 0 ∧ win0_2.index t 1 = 0 :=
  (by decide +kernel : ∀ t : Fin grid0.N, win0_2.index t 0 = 0 ∧ win0_2.index t 1 = 0)

/-- The second view's graph window: the same. -/
theorem idx_g2 : ∀ t : Fin cfg0.N, win0_3.index t 0 = 0 ∧ win0_3.index t 1 = 0 :=
  (by decide +kernel : ∀ t : Fin grid0.N, win0_3.index t 0 = 0 ∧ win0_3.index t 1 = 0)

/-- The first view's graph array as the region finds it: the argument's rows at unit length. -/
theorem g1arr_eq (c : Dev nD) :
    (V m c main_v3 : S512x256.Idx → EReal) = unitRows (m ((c : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results
  rfl

/-- The second view's graph array as the region finds it. -/
theorem g2arr_eq (c : Dev nD) :
    (V m c main_v7 : S512x256.Idx → EReal) = unitRows (m ((c : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results
  rfl

/-! ## The labels: a vector of 50000 words as a column, followed by 176 zero words, cut into 196 tiles -/

/-- The padded label column read at row n: the label itself below 50000, the zero word from there on
    (the column at (n, 0) is the vector at n). -/
theorem padLabels_apply (x : S50000.Idx → BitVec 32) (n : Fin 50176) (u : Fin 1) :
    pad S50176x1 ![0, 0] ![176, 0] ![0, 0] (shapeCast S50000x1 x shapeCasts_S50000_S50000x1)
        (id (constantI S_ 32 0#32)) pads_S50000x1_S50176x1_01760_000 h_S_ (ix2 n u)
      = Cert.Gcl.padLabels (fun n => x (ix1 n)) n := by
  unfold Cert.Gcl.padLabels
  by_cases h : n.val < 50000
  · rw [dif_pos h]
    refine (pad_apply_of_inside _ _ _ _ _ _ _ (ix2 n u) (ix2 (⟨n.val, h⟩ : Fin 50000) u) ?_).trans ?_
    · intro a
      match a with
      | ⟨0, _⟩ => show n.val = 0 + n.val * (0 + 1); omega
      | ⟨1, _⟩ => show u.val = 0 + u.val * (0 + 1); omega
    · exact Cert.LibRank1.shapeCast_a_a1_apply x _ _ u
  · rw [dif_neg h]
    refine (pad_apply_of_not_inside _ _ _ _ _ _ _ (ix2 n u) (0 : Fin 2) ?_).trans ?_
    · intro hin
      have h3 : (n.val - 0) / (0 + 1) < 50000 := hin.2.2
      omega
    · rfl

/-- The first view's label tiles: point t reads block row t, block column 0. -/
theorem idx_b1 : ∀ t : Fin cfg0.N, win0_4.index t 0 = t.val ∧ win0_4.index t 1 = 0 :=
  (by decide +kernel : ∀ t : Fin grid0.N, win0_4.index t 0 = t.val ∧ win0_4.index t 1 = 0)

/-- The second view's label tiles: the same. -/
theorem idx_b2 : ∀ t : Fin cfg0.N, win0_5.index t 0 = t.val ∧ win0_5.index t 1 = 0 :=
  (by decide +kernel : ∀ t : Fin grid0.N, win0_5.index t 0 = t.val ∧ win0_5.index t 1 = 0)

/-- The first view's label array as the region finds it: the argument as a column, padded below with zero words. -/
theorem b1arr_eq (c : Dev nD) :
    (V m c main_v12 : S50176x1.Idx → BitVec 32)
      = pad S50176x1 ![0, 0] ![176, 0] ![0, 0] (shapeCast S50000x1 (m ((c : Thread nD τ).loc main_arg4)) shapeCasts_S50000_S50000x1)
          (id (constantI S_ 32 0#32)) pads_S50000x1_S50176x1_01760_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results
  rfl

/-- The second view's label array as the region finds it. -/
theorem b2arr_eq (c : Dev nD) :
    (V m c main_v13 : S50176x1.Idx → BitVec 32)
      = pad S50176x1 ![0, 0] ![176, 0] ![0, 0] (shapeCast S50000x1 (m ((c : Thread nD τ).loc main_arg5)) shapeCasts_S50000_S50000x1)
          (id (constantI S_ 32 0#32)) pads_S50000x1_S50176x1_01760_000 h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results
  rfl

/-! ## The six blocks -/

/-- Tile t of the first view's padded node rows. -/
theorem z1blk_eq (c : Dev nD) (t : Fin cfg0.N) (r k : Fin 256) :
    z1blk m c t (ix2 r k)
      = Cert.Gcl.padRows (fun n k => m ((c : Thread nD τ).loc main_arg0) (ix2 n k)) (Cert.Gcl.tileRow (t.cast N_0) r) k := by
  unfold z1blk iblk
  rw [View.read_apply]
  show V m c main_v10 (((cfg0.win 0).blk t).view.emb (ix2 r k)) = _
  have hi := idx_z1 t
  have he : ((cfg0.win 0).blk t).view.emb (ix2 r k) = ix2 (Cert.Gcl.tileRow (t.cast N_0) r) k := by
    funext a
    apply Fin.ext
    match a with
    | ⟨0, _⟩ => show win0_0.index t 0 * 256 + 1 * r.val = 256 * t.val + r.val; rw [hi.1]; omega
    | ⟨1, _⟩ => show win0_0.index t 1 * 256 + 1 * k.val = k.val; rw [hi.2]; omega
  rw [he, z1arr_eq, padRows_apply]

/-- Tile t of the second view's padded node rows. -/
theorem z2blk_eq (c : Dev nD) (t : Fin cfg0.N) (r k : Fin 256) :
    z2blk m c t (ix2 r k)
      = Cert.Gcl.padRows (fun n k => m ((c : Thread nD τ).loc main_arg1) (ix2 n k)) (Cert.Gcl.tileRow (t.cast N_0) r) k := by
  unfold z2blk iblk
  rw [View.read_apply]
  show V m c main_v11 (((cfg0.win 1).blk t).view.emb (ix2 r k)) = _
  have hi := idx_z2 t
  have he : ((cfg0.win 1).blk t).view.emb (ix2 r k) = ix2 (Cert.Gcl.tileRow (t.cast N_0) r) k := by
    funext a
    apply Fin.ext
    match a with
    | ⟨0, _⟩ => show win0_1.index t 0 * 256 + 1 * r.val = 256 * t.val + r.val; rw [hi.1]; omega
    | ⟨1, _⟩ => show win0_1.index t 1 * 256 + 1 * k.val = k.val; rw [hi.2]; omega
  rw [he, z2arr_eq, padRows_apply]

/-- The first view's graph rows at unit length (every point sees the whole array). -/
theorem g1blk_eq (c : Dev nD) (t : Fin cfg0.N) (j : Fin 512) (k : Fin 256) :
    g1blk m c t (ix2 j k) = Cert.Gcl.unit (fun k => m ((c : Thread nD τ).loc main_arg2) (ix2 j k)) k := by
  unfold g1blk iblk
  rw [View.read_apply]
  show V m c main_v3 (((cfg0.win 2).blk t).view.emb (ix2 j k)) = _
  have hi := idx_g1 t
  have he : ((cfg0.win 2).blk t).view.emb (ix2 j k) = ix2 j k := by
    funext a
    apply Fin.ext
    match a with
    | ⟨0, _⟩ => show win0_2.index t 0 * 512 + 1 * j.val = j.val; rw [hi.1]; omega
    | ⟨1, _⟩ => show win0_2.index t 1 * 256 + 1 * k.val = k.val; rw [hi.2]; omega
  rw [he, g1arr_eq, unitRows_apply]

/-- The second view's graph rows at unit length. -/
theorem g2blk_eq (c : Dev nD) (t : Fin cfg0.N) (j : Fin 512) (k : Fin 256) :
    g2blk m c t (ix2 j k) = Cert.Gcl.unit (fun k => m ((c : Thread nD τ).loc main_arg3) (ix2 j k)) k := by
  unfold g2blk iblk
  rw [View.read_apply]
  show V m c main_v7 (((cfg0.win 3).blk t).view.emb (ix2 j k)) = _
  have hi := idx_g2 t
  have he : ((cfg0.win 3).blk t).view.emb (ix2 j k) = ix2 j k := by
    funext a
    apply Fin.ext
    match a with
    | ⟨0, _⟩ => show win0_3.index t 0 * 512 + 1 * j.val = j.val; rw [hi.1]; omega
    | ⟨1, _⟩ => show win0_3.index t 1 * 256 + 1 * k.val = k.val; rw [hi.2]; omega
  rw [he, g2arr_eq, unitRows_apply]

/-- Tile t of the first view's padded labels. -/
theorem b1blk_eq (c : Dev nD) (t : Fin cfg0.N) (r : Fin 256) :
    b1blk m c t (ix2 r 0)
      = Cert.Gcl.padLabels (fun n => m ((c : Thread nD τ).loc main_arg4) (ix1 n)) (Cert.Gcl.tileRow (t.cast N_0) r) := by
  unfold b1blk iblk
  rw [View.read_apply]
  show V m c main_v12 (((cfg0.win 4).blk t).view.emb (ix2 r 0)) = _
  have hi := idx_b1 t
  have he : ((cfg0.win 4).blk t).view.emb (ix2 r (0 : Fin 1)) = ix2 (Cert.Gcl.tileRow (t.cast N_0) r) (0 : Fin 1) := by
    funext a
    apply Fin.ext
    match a with
    | ⟨0, _⟩ => show win0_4.index t 0 * 256 + 1 * r.val = 256 * t.val + r.val; rw [hi.1]; omega
    | ⟨1, _⟩ => show win0_4.index t 1 * 1 + 1 * 0 = 0; rw [hi.2]
  rw [he, b1arr_eq, padLabels_apply]

/-- Tile t of the second view's padded labels. -/
theorem b2blk_eq (c : Dev nD) (t : Fin cfg0.N) (r : Fin 256) :
    b2blk m c t (ix2 r 0)
      = Cert.Gcl.padLabels (fun n => m ((c : Thread nD τ).loc main_arg5) (ix1 n)) (Cert.Gcl.tileRow (t.cast N_0) r) := by
  unfold b2blk iblk
  rw [View.read_apply]
  show V m c main_v13 (((cfg0.win 5).blk t).view.emb (ix2 r 0)) = _
  have hi := idx_b2 t
  have he : ((cfg0.win 5).blk t).view.emb (ix2 r (0 : Fin 1)) = ix2 (Cert.Gcl.tileRow (t.cast N_0) r) (0 : Fin 1) := by
    funext a
    apply Fin.ext
    match a with
    | ⟨0, _⟩ => show win0_5.index t 0 * 256 + 1 * r.val = 256 * t.val + r.val; rw [hi.1]; omega
    | ⟨1, _⟩ => show win0_5.index t 1 * 1 + 1 * 0 = 0; rw [hi.2]
  rw [he, b2arr_eq, padLabels_apply]

end Cert.KernelIdeal.HostArrays

end
-- ==== Proof.Algebra.lean ====
/-
  The algebra behind the loss: selecting the labelled column against masking by the one-hot row,
  the all-zero padded row, and the sum over 196 tiles of 256 rows against the sum over 50000 rows.
-/
import proofs.«163930_j49959059587771_1_alg».proof.Proof.Spec

noncomputable section

open scoped BigOperators

namespace Cert.Gcl

open Idealize.ShloMosaic

/-- The word for log 2 denotes a real number. -/
theorem ln2_real : ∃ r : ℝ, ln2 = (r : EReal) := by
  unfold ln2
  simp [Ideal.ofBits, Ideal.ieee, -EReal.coe_mul]

/-- The clip word denotes a positive real number. -/
theorem eps_real : ∃ r : ℝ, 0 < r ∧ eps = (r : EReal) := by
  unfold eps
  simp [Ideal.ofBits, Ideal.ieee, -EReal.coe_mul]

/-- A finite sum of real numbers is a real number. -/
theorem sum_real {ι : Type*} (t : Finset ι) (f : ι → EReal) (h : ∀ i ∈ t, ∃ r : ℝ, f i = (r : EReal)) :
    ∃ r : ℝ, ∑ i ∈ t, f i = (r : EReal) := by
  refine Finset.sum_induction f (fun x => ∃ r : ℝ, x = (r : EReal)) ?_ ?_ h
  · rintro _ _ ⟨x, rfl⟩ ⟨y, rfl⟩
    exact ⟨x + y, (EReal.coe_add x y).symm⟩
  · exact ⟨0, EReal.coe_zero.symm⟩

/-- jsd 0 = ln2 - log 2 is a real number. -/
theorem jsd_zero_real : ∃ r : ℝ, jsd 0 = (r : EReal) := by
  obtain ⟨l, hl⟩ := ln2_real
  refine ⟨l - Real.log 2, ?_⟩
  have h1 : Ideal.exp (0 : EReal) = ((1 : ℝ) : EReal) := by
    rw [← EReal.coe_zero, Ideal.exp_coe, Real.exp_zero]
  have h2 : Ideal.log1p ((1 : ℝ) : EReal) = ((Real.log 2 : ℝ) : EReal) := by
    unfold Ideal.log1p
    rw [← EReal.coe_one, ← EReal.coe_add, Ideal.log_coe, if_neg (by norm_num)]
    norm_num
  unfold jsd softplus
  simp only [neg_zero, max_self]
  rw [hl, h1, h2, zero_add, ← EReal.coe_sub]

/-- Adding the same real number to both sides leaves an extended-real difference unchanged. -/
theorem add_real_sub_add_real (A B : EReal) (e : ℝ) : (A + e) - (B + e) = A - B := by
  induction A using EReal.rec <;> induction B using EReal.rec
  case coe.coe a b => norm_cast; ring
  case top.coe b => rw [EReal.top_add_coe, ← EReal.coe_add, EReal.top_sub_coe, EReal.top_sub_coe]
  all_goals simp

/-- Masking and summing every column is selecting plus the unlabelled columns' constant. -/
theorem pickOneHot_eq (b : BitVec 32) (s : Fin 512 → EReal) :
    pickOneHot b s = pick b s + ∑ j : Fin 512, (if hit b j then (0 : EReal) else jsd 0) := by
  unfold pickOneHot pick
  rw [← Finset.sum_add_distrib]
  refine Finset.sum_congr rfl (fun j _ => ?_)
  by_cases h : hit b j
  · simp only [if_pos h, mul_one, add_zero]
  · simp only [if_neg h, mul_zero, zero_add]

/-- Masking by the one-hot row and summing every column gives the same row difference as selecting the
    labelled column: each unlabelled column adds the real constant jsd 0 to both sums. -/
theorem rowdiffOneHot_eq (b : BitVec 32) (s c : Fin 512 → EReal) : rowdiffOneHot b s c = rowdiff b s c := by
  obtain ⟨r, hr⟩ := jsd_zero_real
  obtain ⟨e, he⟩ : ∃ e : ℝ, (∑ j : Fin 512, (if hit b j then (0 : EReal) else jsd 0)) = (e : EReal) := by
    refine sum_real _ _ (fun j _ => ?_)
    by_cases h : hit b j
    · exact ⟨0, by rw [if_pos h, EReal.coe_zero]⟩
    · exact ⟨r, by rw [if_neg h, hr]⟩
  unfold rowdiffOneHot rowdiff
  rw [pickOneHot_eq, pickOneHot_eq, he]
  exact add_real_sub_add_real _ _ e

/-- So the two forms of the loss agree. -/
theorem lossOneHot_eq {N : ℕ} (z1 z2 : Fin N → Fin 256 → EReal) (g1 g2 : Fin 512 → Fin 256 → EReal) (b1 b2 : Fin N → BitVec 32) :
    lossOneHot z1 z2 g1 g2 b1 b2 = loss z1 z2 g1 g2 b1 b2 := by
  have h : ∀ (z : Fin 256 → EReal) (b : BitVec 32) (ga gb : Fin 512 → Fin 256 → EReal),
      nodeOneHot z b ga gb = nodeN z b ga gb := fun z b ga gb => rowdiffOneHot_eq b _ _
  unfold lossOneHot loss sumsqOneHot sumsqN
  simp only [h]

/-- The zero row has the clip as its length. -/
theorem len_zero {K : ℕ} : len (fun _ : Fin K => (0 : EReal)) = eps := by
  obtain ⟨r, hr, he⟩ := eps_real
  unfold len
  have h0 : Ideal.sqrt (∑ _k : Fin K, (0 : EReal) * 0) = 0 := by
    simp only [mul_zero, Finset.sum_const_zero]
    rw [← EReal.coe_zero, Ideal.sqrt_coe, if_neg (lt_irrefl _), Real.sqrt_zero]
  rw [h0, he]
  exact max_eq_left (by exact_mod_cast hr.le)

/-- The zero row scaled to unit length is still the zero row. -/
theorem unit_zero {K : ℕ} (k : Fin K) : unit (fun _ : Fin K => (0 : EReal)) k = 0 := by
  obtain ⟨r, hr, he⟩ := eps_real
  have hne : eps ≠ 0 := by rw [he]; exact_mod_cast hr.ne'
  unfold unit
  rw [len_zero, Ideal.div, if_neg hne, zero_mul]

/-- The zero row has similarity 0 to every graph row. -/
theorem simsN_zero (g : Fin 512 → Fin 256 → EReal) : simsN (fun _ => 0) g = fun _ => 0 := by
  funext j
  unfold simsN dot
  simp only [unit_zero, zero_mul, Finset.sum_const_zero]

/-- A zero row with the zero label has divergence difference 0 (its similarities to every graph are 0, and
    the two selected divergences are the same real number). -/
theorem nodeN_zero_row (ga gb : Fin 512 → Fin 256 → EReal) : nodeN (fun _ => 0) 0#32 ga gb = 0 := by
  obtain ⟨r, hr⟩ := jsd_zero_real
  obtain ⟨p, hp⟩ : ∃ p : ℝ, pick 0#32 (fun _ => (0 : EReal)) = (p : EReal) := by
    unfold pick
    refine sum_real _ _ (fun j _ => ?_)
    by_cases h : hit 0#32 j
    · exact ⟨r, by rw [if_pos h, hr]⟩
    · exact ⟨0, by rw [if_neg h, EReal.coe_zero]⟩
  unfold nodeN rowdiff
  rw [simsN_zero, simsN_zero, hp, ← EReal.coe_sub, sub_self, EReal.coe_zero]

/-- Every row of the padded array is row r of tile t for exactly one pair (t, r). -/
theorem sum_tiles (f : Fin 50176 → EReal) :
    ∑ t : Fin 196, ∑ r : Fin 256, f (tileRow t r) = ∑ n : Fin 50176, f n := by
  rw [← Fintype.sum_prod_type']
  refine Fintype.sum_equiv (finProdFinEquiv (m := 196) (n := 256)) _ _ ?_
  rintro ⟨t, r⟩
  congr 1
  apply Fin.ext
  simp only [tileRow, finProdFinEquiv_apply_val]
  omega

/-- A padded row below 50000 is the row itself. -/
theorem padRows_castAdd (z : Fin 50000 → Fin 256 → EReal) (i : Fin 50000) :
    padRows z (Fin.castAdd 176 i) = z i := by
  funext k
  unfold padRows
  rw [dif_pos (by simp only [Fin.coe_castAdd]; exact i.isLt)]
  rfl

theorem padLabels_castAdd (b : Fin 50000 → BitVec 32) (i : Fin 50000) :
    padLabels b (Fin.castAdd 176 i) = b i := by
  unfold padLabels
  rw [dif_pos (by simp only [Fin.coe_castAdd]; exact i.isLt)]
  rfl

/-- A padded row from 50000 on is the zero row with the zero label. -/
theorem padRows_natAdd (z : Fin 50000 → Fin 256 → EReal) (i : Fin 176) :
    padRows z (Fin.natAdd 50000 i) = fun _ => 0 := by
  funext k
  unfold padRows
  rw [dif_neg (by simp only [Fin.coe_natAdd]; omega)]

theorem padLabels_natAdd (b : Fin 50000 → BitVec 32) (i : Fin 176) :
    padLabels b (Fin.natAdd 50000 i) = 0#32 := by
  unfold padLabels
  rw [dif_neg (by simp only [Fin.coe_natAdd]; omega)]

/-- The 196 tiles' sums over the padded rows add up to the sum over the 50000 rows. -/
theorem sum_tileSum (z : Fin 50000 → Fin 256 → EReal) (b : Fin 50000 → BitVec 32) (ga gb : Fin 512 → Fin 256 → EReal) :
    ∑ t : Fin 196, tileSum (padRows z) (padLabels b) ga gb t = sumsqN z b ga gb := by
  unfold tileSum sumsqN
  rw [sum_tiles (fun n => nodeN (padRows z n) (padLabels b n) ga gb * nodeN (padRows z n) (padLabels b n) ga gb)]
  have hsplit := Fin.sum_univ_add (a := 50000) (b := 176)
    (fun n : Fin 50176 => nodeN (padRows z n) (padLabels b n) ga gb * nodeN (padRows z n) (padLabels b n) ga gb)
  refine hsplit.trans ?_
  simp only [padRows_castAdd, padLabels_castAdd, padRows_natAdd, padLabels_natAdd, nodeN_zero_row,
    mul_zero, Finset.sum_const_zero, add_zero]

end Cert.Gcl

end
-- ==== Proof.KernelValue.lean ====
/-
  The kernel's result at the extended reals is the loss: each tile adds its 256 rows' squared divergence
  differences (rows past 50000 are zero rows with the zero label and add nothing), so the two accumulators end
  at the two views' sums of squares over the 50000 nodes.
-/
import proofs.«163930_j49959059587771_1_alg».proof.Proof.KernelRun
import proofs.«163930_j49959059587771_1_alg».proof.Proof.SimBlocks
import proofs.«163930_j49959059587771_1_alg».proof.Proof.TileSums
import proofs.«163930_j49959059587771_1_alg».proof.Proof.HostArrays
import proofs.«163930_j49959059587771_1_alg».proof.Proof.Algebra
import proofs.«163930_j49959059587771_1_alg».proof.Proof.LibRank1

set_option maxRecDepth 16384

noncomputable section

open scoped BigOperators

namespace Cert.KernelIdeal.Acc

open Cert.KernelIdeal Cert.KernelIdeal.Gen Cert.KernelIdeal.Blocks Cert.KernelIdeal.Pieces
open Idealize.ShloMosaic Idealize.ShloMosaic.TcCoe Idealize.SL.Sem Idealize.ShloMosaic.ValueIdx

variable (m : (ℓ : Loc nD τ sig) → Buf (Elt Ideal) ℓ)

/-- The six arguments by coordinates. -/
abbrev Z1 (c : Dev nD) : Fin 50000 → Fin 256 → EReal := fun n k => m ((c : Thread nD τ).loc main_arg0) (ix2 n k)
abbrev Z2 (c : Dev nD) : Fin 50000 → Fin 256 → EReal := fun n k => m ((c : Thread nD τ).loc main_arg1) (ix2 n k)
abbrev G1 (c : Dev nD) : Fin 512 → Fin 256 → EReal := fun j k => m ((c : Thread nD τ).loc main_arg2) (ix2 j k)
abbrev G2 (c : Dev nD) : Fin 512 → Fin 256 → EReal := fun j k => m ((c : Thread nD τ).loc main_arg3) (ix2 j k)
abbrev B1 (c : Dev nD) : Fin 50000 → BitVec 32 := fun n => m ((c : Thread nD τ).loc main_arg4) (ix1 n)
abbrev B2 (c : Dev nD) : Fin 50000 → BitVec 32 := fun n => m ((c : Thread nD τ).loc main_arg5) (ix1 n)

/-- One tile's sum of the first view, and of the second. -/
abbrev T1 (c : Dev nD) (t : Fin 196) : EReal :=
  Cert.Gcl.tileSum (Cert.Gcl.padRows (Z1 m c)) (Cert.Gcl.padLabels (B1 m c)) (fun j => Cert.Gcl.unit (G1 m c j)) (fun j => Cert.Gcl.unit (G2 m c j)) t
abbrev T2 (c : Dev nD) (t : Fin 196) : EReal :=
  Cert.Gcl.tileSum (Cert.Gcl.padRows (Z2 m c)) (Cert.Gcl.padLabels (B2 m c)) (fun j => Cert.Gcl.unit (G2 m c j)) (fun j => Cert.Gcl.unit (G1 m c j)) t

theorem g1rows (c : Dev nD) (t : Fin cfg0.N) : (fun j k => g1blk m c t (ix2 j k)) = fun j => Cert.Gcl.unit (G1 m c j) :=
  funext fun j => funext fun k => HostArrays.g1blk_eq m c t j k
theorem g2rows (c : Dev nD) (t : Fin cfg0.N) : (fun j k => g2blk m c t (ix2 j k)) = fun j => Cert.Gcl.unit (G2 m c j) :=
  funext fun j => funext fun k => HostArrays.g2blk_eq m c t j k
theorem z1row (c : Dev nD) (t : Fin cfg0.N) (r : Fin 256) :
    (fun k => z1blk m c t (ix2 r k)) = Cert.Gcl.padRows (Z1 m c) (Cert.Gcl.tileRow (t.cast N_0) r) :=
  funext fun k => HostArrays.z1blk_eq m c t r k
theorem z2row (c : Dev nD) (t : Fin cfg0.N) (r : Fin 256) :
    (fun k => z2blk m c t (ix2 r k)) = Cert.Gcl.padRows (Z2 m c) (Cert.Gcl.tileRow (t.cast N_0) r) :=
  funext fun k => HostArrays.z2blk_eq m c t r k

/-- Row r of tile t, first view: the kernel's masked row sums are the node's divergence difference. -/
theorem node1 (c : Dev nD) (t : Fin cfg0.N) (r : Fin 256) :
    Cert.Gcl.rowdiff (b1blk m c t (ix2 r 0)) (fun j => k0_pay9 (F := Ideal) (z1blk m c t) (g1blk m c t) (ix2 r j))
        (fun j => k0_pay10 (F := Ideal) (z1blk m c t) (g2blk m c t) (ix2 r j))
      = Cert.Gcl.nodeN (Cert.Gcl.padRows (Z1 m c) (Cert.Gcl.tileRow (t.cast N_0) r)) (Cert.Gcl.padLabels (B1 m c) (Cert.Gcl.tileRow (t.cast N_0) r))
          (fun j => Cert.Gcl.unit (G1 m c j)) (fun j => Cert.Gcl.unit (G2 m c j)) := by
  have hs : (fun j => k0_pay9 (F := Ideal) (z1blk m c t) (g1blk m c t) (ix2 r j))
      = Cert.Gcl.simsN (Cert.Gcl.padRows (Z1 m c) (Cert.Gcl.tileRow (t.cast N_0) r)) (fun j => Cert.Gcl.unit (G1 m c j)) := by
    funext j
    rw [Sim.sim9 (z1blk m c t) (g1blk m c t) r j, z1row m c t r, g1rows m c t]
  have hc : (fun j => k0_pay10 (F := Ideal) (z1blk m c t) (g2blk m c t) (ix2 r j))
      = Cert.Gcl.simsN (Cert.Gcl.padRows (Z1 m c) (Cert.Gcl.tileRow (t.cast N_0) r)) (fun j => Cert.Gcl.unit (G2 m c j)) := by
    funext j
    rw [Sim.sim10 (z1blk m c t) (g2blk m c t) r j, z1row m c t r, g2rows m c t]
  rw [hs, hc, HostArrays.b1blk_eq m c t r]
  rfl

/-- Row r of tile t, second view (its own graphs are the second view's). -/
theorem node2 (c : Dev nD) (t : Fin cfg0.N) (r : Fin 256) :
    Cert.Gcl.rowdiff (b2blk m c t (ix2 r 0)) (fun j => k0_pay11 (F := Ideal) (z2blk m c t) (g2blk m c t) (ix2 r j))
        (fun j => k0_pay12 (F := Ideal) (z2blk m c t) (g1blk m c t) (ix2 r j))
      = Cert.Gcl.nodeN (Cert.Gcl.padRows (Z2 m c) (Cert.Gcl.tileRow (t.cast N_0) r)) (Cert.Gcl.padLabels (B2 m c) (Cert.Gcl.tileRow (t.cast N_0) r))
          (fun j => Cert.Gcl.unit (G2 m c j)) (fun j => Cert.Gcl.unit (G1 m c j)) := by
  have hs : (fun j => k0_pay11 (F := Ideal) (z2blk m c t) (g2blk m c t) (ix2 r j))
      = Cert.Gcl.simsN (Cert.Gcl.padRows (Z2 m c) (Cert.Gcl.tileRow (t.cast N_0) r)) (fun j => Cert.Gcl.unit (G2 m c j)) := by
    funext j
    rw [Sim.sim11 (z2blk m c t) (g2blk m c t) r j, z2row m c t r, g2rows m c t]
  have hc : (fun j => k0_pay12 (F := Ideal) (z2blk m c t) (g1blk m c t) (ix2 r j))
      = Cert.Gcl.simsN (Cert.Gcl.padRows (Z2 m c) (Cert.Gcl.tileRow (t.cast N_0) r)) (fun j => Cert.Gcl.unit (G1 m c j)) := by
    funext j
    rw [Sim.sim12 (z2blk m c t) (g1blk m c t) r j, z2row m c t r, g1rows m c t]
  rw [hs, hc, HostArrays.b2blk_eq m c t r]
  rfl

/-- A tile adds its sum to the first accumulator. -/
theorem new1_eq (c : Dev nD) (t : Fin cfg0.N) (acc : Vec Ideal S1x1 .f32) :
    new1 (z1blk m c t) (g1blk m c t) (g2blk m c t) (b1blk m c t) acc = fun _ => acc (ix2 0 0) + T1 m c (t.cast N_0) := by
  refine (Tile.acc1 (k0_pay9 (F := Ideal) (z1blk m c t) (g1blk m c t)) (k0_pay10 (F := Ideal) (z1blk m c t) (g2blk m c t)) (b1blk m c t) acc).trans ?_
  funext _
  refine congrArg (acc (ix2 0 0) + ·) (Finset.sum_congr rfl fun r _ => ?_)
  rw [node1 m c t r]

/-- A tile adds its sum to the second accumulator. -/
theorem new2_eq (c : Dev nD) (t : Fin cfg0.N) (acc : Vec Ideal S1x1 .f32) :
    new2 (z2blk m c t) (g1blk m c t) (g2blk m c t) (b2blk m c t) acc = fun _ => acc (ix2 0 0) + T2 m c (t.cast N_0) := by
  refine (Tile.acc2 (k0_pay11 (F := Ideal) (z2blk m c t) (g2blk m c t)) (k0_pay12 (F := Ideal) (z2blk m c t) (g1blk m c t)) (b2blk m c t) acc).trans ?_
  funext _
  refine congrArg (acc (ix2 0 0) + ·) (Finset.sum_congr rfl fun r _ => ?_)
  rw [node2 m c t r]

/-- A tile's sum by its number, zero past the grid. -/
def U1 (c : Dev nD) (s : ℕ) : EReal := if h : s < 196 then T1 m c ⟨s, h⟩ else 0
def U2 (c : Dev nD) (s : ℕ) : EReal := if h : s < 196 then T2 m c ⟨s, h⟩ else 0

theorem zero3 : (k0_pay3 (F := Ideal)) (ix2 0 0) = 0 := Ideal.ofBits_zero_f32
theorem zero4 : (k0_pay4 (F := Ideal)) (ix2 0 0) = 0 := Ideal.ofBits_zero_f32

/-- The accumulators after point n are the sums of tiles 0 .. n. -/
theorem run1_eq (c : Dev nD) : ∀ (n : ℕ) (h : n < cfg0.N), run1 m c n h = fun _ => ∑ s ∈ Finset.range (n + 1), U1 m c s
  | 0, h => by
    have hN : cfg0.N = 196 := N_0
    show new1 (z1blk m c ⟨0, h⟩) (g1blk m c ⟨0, h⟩) (g2blk m c ⟨0, h⟩) (b1blk m c ⟨0, h⟩) (k0_pay3 (F := Ideal)) = _
    rw [new1_eq m c ⟨0, h⟩, zero3, zero_add]
    funext _
    rw [Finset.sum_range_one, U1, dif_pos (by omega)]
    rfl
  | n + 1, h => by
    have hN : cfg0.N = 196 := N_0
    show new1 (z1blk m c ⟨n + 1, h⟩) (g1blk m c ⟨n + 1, h⟩) (g2blk m c ⟨n + 1, h⟩) (b1blk m c ⟨n + 1, h⟩) (run1 m c n (Nat.lt_of_succ_lt h)) = _
    rw [new1_eq m c ⟨n + 1, h⟩, run1_eq c n (Nat.lt_of_succ_lt h)]
    funext _
    rw [Finset.sum_range_succ _ (n + 1), U1, dif_pos (by omega : n + 1 < 196)]
    rfl

theorem run2_eq (c : Dev nD) : ∀ (n : ℕ) (h : n < cfg0.N), run2 m c n h = fun _ => ∑ s ∈ Finset.range (n + 1), U2 m c s
  | 0, h => by
    have hN : cfg0.N = 196 := N_0
    show new2 (z2blk m c ⟨0, h⟩) (g1blk m c ⟨0, h⟩) (g2blk m c ⟨0, h⟩) (b2blk m c ⟨0, h⟩) (k0_pay4 (F := Ideal)) = _
    rw [new2_eq m c ⟨0, h⟩, zero4, zero_add]
    funext _
    rw [Finset.sum_range_one, U2, dif_pos (by omega)]
    rfl
  | n + 1, h => by
    have hN : cfg0.N = 196 := N_0
    show new2 (z2blk m c ⟨n + 1, h⟩) (g1blk m c ⟨n + 1, h⟩) (g2blk m c ⟨n + 1, h⟩) (b2blk m c ⟨n + 1, h⟩) (run2 m c n (Nat.lt_of_succ_lt h)) = _
    rw [new2_eq m c ⟨n + 1, h⟩, run2_eq c n (Nat.lt_of_succ_lt h)]
    funext _
    rw [Finset.sum_range_succ _ (n + 1), U2, dif_pos (by omega : n + 1 < 196)]
    rfl

/-- All 196 tiles: the view's sum of squares over the 50000 nodes. -/
theorem all1 (c : Dev nD) : ∑ s ∈ Finset.range 196, U1 m c s
    = Cert.Gcl.sumsqN (Z1 m c) (B1 m c) (fun j => Cert.Gcl.unit (G1 m c j)) (fun j => Cert.Gcl.unit (G2 m c j)) := by
  rw [← Cert.Gcl.sum_tileSum, ← Fin.sum_univ_eq_sum_range]
  exact Finset.sum_congr rfl fun t _ => by rw [U1, dif_pos t.isLt]
theorem all2 (c : Dev nD) : ∑ s ∈ Finset.range 196, U2 m c s
    = Cert.Gcl.sumsqN (Z2 m c) (B2 m c) (fun j => Cert.Gcl.unit (G2 m c j)) (fun j => Cert.Gcl.unit (G1 m c j)) := by
  rw [← Cert.Gcl.sum_tileSum, ← Fin.sum_univ_eq_sum_range]
  exact Finset.sum_congr rfl fun t _ => by rw [U2, dif_pos t.isLt]

/-- The host lines after the region at the extended reals: the two square roots added. -/
theorem tail_apply (a b : Vec Ideal S1x1 .f32) (j : S_.Idx) :
    tail (F := Ideal) a b j = Ideal.sqrt (a (ix2 0 0)) + Ideal.sqrt (b (ix2 0 0)) := by
  unfold tail
  show Ideal.sqrt (shapeCast S_ a shapeCasts_S1x1_S_ j) + Ideal.sqrt (shapeCast S_ b shapeCasts_S1x1_S_ j) = _
  rw [Cert.LibRank1.shapeCast_11_scalar_apply, Cert.LibRank1.shapeCast_11_scalar_apply]

/-- The kernel's result is the loss of its six arguments. -/
theorem value (c : Dev nD) :
    tail (res1 m c) (res2 m c) = fun _ => Cert.Gcl.loss (Z1 m c) (Z2 m c) (G1 m c) (G2 m c) (B1 m c) (B2 m c) := by
  funext j
  refine (tail_apply (res1 m c) (res2 m c) j).trans ?_
  show Ideal.sqrt (run1 m c 195 lt195 (ix2 0 0)) + Ideal.sqrt (run2 m c 195 lt195 (ix2 0 0)) = _
  rw [run1_eq m c 195 lt195, run2_eq m c 195 lt195]
  show Ideal.sqrt (∑ s ∈ Finset.range 196, U1 m c s) + Ideal.sqrt (∑ s ∈ Finset.range 196, U2 m c s) = _
  rw [all1, all2]
  rfl

end Cert.KernelIdeal.Acc

end
-- ==== Proof.RefValue.lean ====
/-
  The reference program's result is the loss in its one-hot form: each host operation read at an index.
-/
import proofs.«163930_j49959059587771_1_alg».proof.Proof.Spec
import proofs.«163930_j49959059587771_1_alg».proof.Proof.Gen.ReferenceIdeal.Read
import proofs.«163930_j49959059587771_1_alg».proof.Proof.LibRank1

noncomputable section

open scoped BigOperators

namespace Cert.ReferenceIdeal.RefValue

open Cert.ReferenceIdeal Cert.ReferenceIdeal.Read Idealize.ShloMosaic Idealize.ShloMosaic.ValueIdx

/-- Each row of the operand divided by its clipped length is the row scaled to unit length. -/
theorem unit_x0 (x0 : (⟨S50000x256, .f32⟩ : BufTy).Contents (Elt Ideal)) (n : Fin 50000) (k : Fin 256) :
    val_main_v5 (F := Ideal) x0 (ix2 n k) = Cert.Gcl.unit (fun k => x0 (ix2 n k)) k := by
  rw [val_main_v5_apply, val_main_v4_apply, val_main_v3_apply, val_main_call3_v1_apply, val_main_call3_v0_apply,
    val_main_cst_apply, val_main_v2_apply, val_main_call2_v2_apply, val_main_call2_v1_apply, val_main_call2_cst_apply]
  simp only [val_main_call2_v0_apply, Ideal.hostDivf_def, Ideal.maximumf_def, Ideal.hostUnary_sqrt_def, Ideal.mulf_def,
    Ideal.ofBits_def, Ideal.ofBits_zero_f32, zero_add]
  have hi : ∀ k' : Fin 256, idx_main_call2_v1 (idx_main_call2_v2 (idx_main_v4 (ix2 n k))) k' = ix2 n k' := fun k' =>
    funext fun a => Fin.ext (by match a with | ⟨0, _⟩ => rfl | ⟨1, _⟩ => rfl)
  simp only [hi]
  rfl

/-- Each row of the operand divided by its clipped length is the row scaled to unit length. -/
theorem unit_x1 (x1 : (⟨S50000x256, .f32⟩ : BufTy).Contents (Elt Ideal)) (n : Fin 50000) (k : Fin 256) :
    val_main_v13 (F := Ideal) x1 (ix2 n k) = Cert.Gcl.unit (fun k => x1 (ix2 n k)) k := by
  rw [val_main_v13_apply, val_main_v12_apply, val_main_v11_apply, val_main_call7_v1_apply, val_main_call7_v0_apply,
    val_main_cst_1_apply, val_main_v10_apply, val_main_call6_v2_apply, val_main_call6_v1_apply, val_main_call6_cst_apply]
  simp only [val_main_call6_v0_apply, Ideal.hostDivf_def, Ideal.maximumf_def, Ideal.hostUnary_sqrt_def, Ideal.mulf_def,
    Ideal.ofBits_def, Ideal.ofBits_zero_f32, zero_add]
  have hi : ∀ k' : Fin 256, idx_main_call6_v1 (idx_main_call6_v2 (idx_main_v12 (ix2 n k))) k' = ix2 n k' := fun k' =>
    funext fun a => Fin.ext (by match a with | ⟨0, _⟩ => rfl | ⟨1, _⟩ => rfl)
  simp only [hi]
  rfl

/-- Each row of the operand divided by its clipped length is the row scaled to unit length. -/
theorem unit_x2 (x2 : (⟨S512x256, .f32⟩ : BufTy).Contents (Elt Ideal)) (n : Fin 512) (k : Fin 256) :
    val_main_v9 (F := Ideal) x2 (ix2 n k) = Cert.Gcl.unit (fun k => x2 (ix2 n k)) k := by
  rw [val_main_v9_apply, val_main_v8_apply, val_main_v7_apply, val_main_call5_v1_apply, val_main_call5_v0_apply,
    val_main_cst_0_apply, val_main_v6_apply, val_main_call4_v2_apply, val_main_call4_v1_apply, val_main_call4_cst_apply]
  simp only [val_main_call4_v0_apply, Ideal.hostDivf_def, Ideal.maximumf_def, Ideal.hostUnary_sqrt_def, Ideal.mulf_def,
    Ideal.ofBits_def, Ideal.ofBits_zero_f32, zero_add]
  have hi : ∀ k' : Fin 256, idx_main_call4_v1 (idx_main_call4_v2 (idx_main_v8 (ix2 n k))) k' = ix2 n k' := fun k' =>
    funext fun a => Fin.ext (by match a with | ⟨0, _⟩ => rfl | ⟨1, _⟩ => rfl)
  simp only [hi]
  rfl

/-- Each row of the operand divided by its clipped length is the row scaled to unit length. -/
theorem unit_x3 (x3 : (⟨S512x256, .f32⟩ : BufTy).Contents (Elt Ideal)) (n : Fin 512) (k : Fin 256) :
    val_main_v17 (F := Ideal) x3 (ix2 n k) = Cert.Gcl.unit (fun k => x3 (ix2 n k)) k := by
  rw [val_main_v17_apply, val_main_v16_apply, val_main_v15_apply, val_main_call9_v1_apply, val_main_call9_v0_apply,
    val_main_cst_2_apply, val_main_v14_apply, val_main_call8_v2_apply, val_main_call8_v1_apply, val_main_call8_cst_apply]
  simp only [val_main_call8_v0_apply, Ideal.hostDivf_def, Ideal.maximumf_def, Ideal.hostUnary_sqrt_def, Ideal.mulf_def,
    Ideal.ofBits_def, Ideal.ofBits_zero_f32, zero_add]
  have hi : ∀ k' : Fin 256, idx_main_call8_v1 (idx_main_call8_v2 (idx_main_v16 (ix2 n k))) k' = ix2 n k' := fun k' =>
    funext fun a => Fin.ext (by match a with | ⟨0, _⟩ => rfl | ⟨1, _⟩ => rfl)
  simp only [hi]
  rfl

/-- The product with the transposed unit rows reads, at (n, j), the similarity of node row n against graph row j. -/
theorem sims_v19 (x0 : (⟨S50000x256, .f32⟩ : BufTy).Contents (Elt Ideal)) (x2 : (⟨S512x256, .f32⟩ : BufTy).Contents (Elt Ideal)) (n : Fin 50000) (j : Fin 512) :
    val_main_v19 (F := Ideal) x0 x2 (ix2 n j)
      = Cert.Gcl.simsN (fun k => x0 (ix2 n k)) (fun j => Cert.Gcl.unit (fun k => x2 (ix2 j k))) j := by
  rw [val_main_v19_apply]
  unfold Cert.Gcl.simsN Cert.Gcl.dot
  refine Finset.sum_congr rfl fun k _ => ?_
  rw [val_main_v18_apply]
  have hl : lidx_main_v19 (ix2 n j) k = ix2 n k :=
    funext fun a => Fin.ext (by match a with | ⟨0, _⟩ => rfl | ⟨1, _⟩ => rfl)
  have hr : idx_main_v18 (ridx_main_v19 (ix2 n j) k) = ix2 j k :=
    funext fun a => Fin.ext (by match a with | ⟨0, _⟩ => rfl | ⟨1, _⟩ => rfl)
  rw [hl, hr, unit_x0, unit_x2]

/-- The product with the transposed unit rows reads, at (n, j), the similarity of node row n against graph row j. -/
theorem sims_v22 (x1 : (⟨S50000x256, .f32⟩ : BufTy).Contents (Elt Ideal)) (x3 : (⟨S512x256, .f32⟩ : BufTy).Contents (Elt Ideal)) (n : Fin 50000) (j : Fin 512) :
    val_main_v22 (F := Ideal) x1 x3 (ix2 n j)
      = Cert.Gcl.simsN (fun k => x1 (ix2 n k)) (fun j => Cert.Gcl.unit (fun k => x3 (ix2 j k))) j := by
  rw [val_main_v22_apply]
  unfold Cert.Gcl.simsN Cert.Gcl.dot
  refine Finset.sum_congr rfl fun k _ => ?_
  rw [val_main_v21_apply]
  have hl : lidx_main_v22 (ix2 n j) k = ix2 n k :=
    funext fun a => Fin.ext (by match a with | ⟨0, _⟩ => rfl | ⟨1, _⟩ => rfl)
  have hr : idx_main_v21 (ridx_main_v22 (ix2 n j) k) = ix2 j k :=
    funext fun a => Fin.ext (by match a with | ⟨0, _⟩ => rfl | ⟨1, _⟩ => rfl)
  rw [hl, hr, unit_x1, unit_x3]

/-- The product with the transposed unit rows reads, at (n, j), the similarity of node row n against graph row j. -/
theorem sims_v25 (x0 : (⟨S50000x256, .f32⟩ : BufTy).Contents (Elt Ideal)) (x3 : (⟨S512x256, .f32⟩ : BufTy).Contents (Elt Ideal)) (n : Fin 50000) (j : Fin 512) :
    val_main_v25 (F := Ideal) x0 x3 (ix2 n j)
      = Cert.Gcl.simsN (fun k => x0 (ix2 n k)) (fun j => Cert.Gcl.unit (fun k => x3 (ix2 j k))) j := by
  rw [val_main_v25_apply]
  unfold Cert.Gcl.simsN Cert.Gcl.dot
  refine Finset.sum_congr rfl fun k _ => ?_
  rw [val_main_v24_apply]
  have hl : lidx_main_v25 (ix2 n j) k = ix2 n k :=
    funext fun a => Fin.ext (by match a with | ⟨0, _⟩ => rfl | ⟨1, _⟩ => rfl)
  have hr : idx_main_v24 (ridx_main_v25 (ix2 n j) k) = ix2 j k :=
    funext fun a => Fin.ext (by match a with | ⟨0, _⟩ => rfl | ⟨1, _⟩ => rfl)
  rw [hl, hr, unit_x0, unit_x3]

/-- The product with the transposed unit rows reads, at (n, j), the similarity of node row n against graph row j. -/
theorem sims_v28 (x1 : (⟨S50000x256, .f32⟩ : BufTy).Contents (Elt Ideal)) (x2 : (⟨S512x256, .f32⟩ : BufTy).Contents (Elt Ideal)) (n : Fin 50000) (j : Fin 512) :
    val_main_v28 (F := Ideal) x1 x2 (ix2 n j)
      = Cert.Gcl.simsN (fun k => x1 (ix2 n k)) (fun j => Cert.Gcl.unit (fun k => x2 (ix2 j k))) j := by
  rw [val_main_v28_apply]
  unfold Cert.Gcl.simsN Cert.Gcl.dot
  refine Finset.sum_congr rfl fun k _ => ?_
  rw [val_main_v27_apply]
  have hl : lidx_main_v28 (ix2 n j) k = ix2 n k :=
    funext fun a => Fin.ext (by match a with | ⟨0, _⟩ => rfl | ⟨1, _⟩ => rfl)
  have hr : idx_main_v27 (ridx_main_v28 (ix2 n j) k) = ix2 j k :=
    funext fun a => Fin.ext (by match a with | ⟨0, _⟩ => rfl | ⟨1, _⟩ => rfl)
  rw [hl, hr, unit_x1, unit_x2]

/-- The equality bit of two words, converted to a float, is 1 where they agree and 0 elsewhere. -/
theorem uitofp_cmpi_eq (a b : BitVec 32) :
    (FloatOps.uitofp (F := Ideal) .f32 (IntOp.cmpi .eq a b) : EReal) = if b = a then 1 else 0 := by
  show (((IntOp.cmpi .eq a b).toNat : ℝ) : EReal) = _
  unfold IntOp.cmpi
  by_cases h : b = a
  · subst h; simp
  · have h' : (a == b) = false := by simp [Ne.symm h]
    simp [h, h']

/-- The one-hot array reads, at (n, j), 1 where column j is the labelled one and 0 elsewhere. -/
theorem onehot_x4 (x4 : (⟨S50000, .i32⟩ : BufTy).Contents (Elt Ideal)) (n : Fin 50000) (j : Fin 512) :
    val_main_v0 (F := Ideal) x4 (ix2 n j) = if Cert.Gcl.hit (x4 (ix1 n)) j then 1 else 0 := by
  rw [val_main_v0_apply, val_main_call0_v4_apply, val_main_call0_v2_apply, val_main_call0_v0_apply, val_main_call0_v3_apply,
    val_main_call0_v1_apply]
  have h1 : idx_main_call0_v0 (idx_main_call0_v2 (ix2 n j)) = ix1 n :=
    funext fun a => Fin.ext (by match a with | ⟨0, _⟩ => rfl)
  rw [h1]
  exact uitofp_cmpi_eq _ _

/-- The one-hot array reads, at (n, j), 1 where column j is the labelled one and 0 elsewhere. -/
theorem onehot_x5 (x5 : (⟨S50000, .i32⟩ : BufTy).Contents (Elt Ideal)) (n : Fin 50000) (j : Fin 512) :
    val_main_v1 (F := Ideal) x5 (ix2 n j) = if Cert.Gcl.hit (x5 (ix1 n)) j then 1 else 0 := by
  rw [val_main_v1_apply, val_main_call1_v4_apply, val_main_call1_v2_apply, val_main_call1_v0_apply, val_main_call1_v3_apply,
    val_main_call1_v1_apply]
  have h1 : idx_main_call1_v0 (idx_main_call1_v2 (ix2 n j)) = ix1 n :=
    funext fun a => Fin.ext (by match a with | ⟨0, _⟩ => rfl)
  rw [h1]
  exact uitofp_cmpi_eq _ _

/-- A value is never unequal to itself. -/
theorem cmpf_une_self (y : Ideal .f32) : FloatOps.cmpf (F := Ideal) .une y y = 0#1 := by
  rw [Ideal.cmpf_def]; simp [Ideal.cmp]

/-- log 2 minus the softplus of the negated entry is the entry's divergence. -/
theorem jsd_v33 (x0 : (⟨S50000x256, .f32⟩ : BufTy).Contents (Elt Ideal)) (x2 : (⟨S512x256, .f32⟩ : BufTy).Contents (Elt Ideal)) (x4 : (⟨S50000, .i32⟩ : BufTy).Contents (Elt Ideal)) (i : S50000x512.Idx) :
    val_main_v33 (F := Ideal) x0 x2 x4 i = Cert.Gcl.jsd (val_main_v20 (F := Ideal) x0 x2 x4 i) := by
  simp only [val_main_v33_apply, val_main_v32_apply, val_main_cst_3_apply, val_main_v31_apply, val_main_call10_v4_apply,
    cmpf_une_self, select_zero, val_main_call10_v11_apply, val_main_call10_v1_apply, val_main_call10_v0_apply, val_main_call10_cst_apply,
    val_main_call10_v10_apply, val_main_call10_v9_apply, val_main_call10_v8_apply, val_main_call10_v7_apply, val_main_call10_v3_apply,
    val_main_call10_v2_apply, val_main_v30_apply]
  generalize val_main_v20 (F := Ideal) x0 x2 x4 i = s
  simp only [Ideal.subf_def, Ideal.addf_def, Ideal.maximumf_def, Ideal.hostNegf_def, Ideal.negf_def, Ideal.hostAbsf_def,
    Ideal.absf_def, Ideal.hostUnary_exp_def, Ideal.hostUnary_log1p_def, Ideal.ofBits_def, Ideal.ofBits_zero_f32, sub_zero]
  rfl

/-- log 2 minus the softplus of the negated entry is the entry's divergence. -/
theorem jsd_v38 (x0 : (⟨S50000x256, .f32⟩ : BufTy).Contents (Elt Ideal)) (x3 : (⟨S512x256, .f32⟩ : BufTy).Contents (Elt Ideal)) (x4 : (⟨S50000, .i32⟩ : BufTy).Contents (Elt Ideal)) (i : S50000x512.Idx) :
    val_main_v38 (F := Ideal) x0 x3 x4 i = Cert.Gcl.jsd (val_main_v26 (F := Ideal) x0 x3 x4 i) := by
  simp only [val_main_v38_apply, val_main_v37_apply, val_main_cst_5_apply, val_main_v36_apply, val_main_call11_v4_apply,
    cmpf_une_self, select_zero, val_main_call11_v11_apply, val_main_call11_v1_apply, val_main_call11_v0_apply, val_main_call11_cst_apply,
    val_main_call11_v10_apply, val_main_call11_v9_apply, val_main_call11_v8_apply, val_main_call11_v7_apply, val_main_call11_v3_apply,
    val_main_call11_v2_apply, val_main_v35_apply]
  generalize val_main_v26 (F := Ideal) x0 x3 x4 i = s
  simp only [Ideal.subf_def, Ideal.addf_def, Ideal.maximumf_def, Ideal.hostNegf_def, Ideal.negf_def, Ideal.hostAbsf_def,
    Ideal.absf_def, Ideal.hostUnary_exp_def, Ideal.hostUnary_log1p_def, Ideal.ofBits_def, Ideal.ofBits_zero_f32, sub_zero]
  rfl

/-- log 2 minus the softplus of the negated entry is the entry's divergence. -/
theorem jsd_v44 (x1 : (⟨S50000x256, .f32⟩ : BufTy).Contents (Elt Ideal)) (x3 : (⟨S512x256, .f32⟩ : BufTy).Contents (Elt Ideal)) (x5 : (⟨S50000, .i32⟩ : BufTy).Contents (Elt Ideal)) (i : S50000x512.Idx) :
    val_main_v44 (F := Ideal) x1 x3 x5 i = Cert.Gcl.jsd (val_main_v23 (F := Ideal) x1 x3 x5 i) := by
  simp only [val_main_v44_apply, val_main_v43_apply, val_main_cst_7_apply, val_main_v42_apply, val_main_call12_v4_apply,
    cmpf_une_self, select_zero, val_main_call12_v11_apply, val_main_call12_v1_apply, val_main_call12_v0_apply, val_main_call12_cst_apply,
    val_main_call12_v10_apply, val_main_call12_v9_apply, val_main_call12_v8_apply, val_main_call12_v7_apply, val_main_call12_v3_apply,
    val_main_call12_v2_apply, val_main_v41_apply]
  generalize val_main_v23 (F := Ideal) x1 x3 x5 i = s
  simp only [Ideal.subf_def, Ideal.addf_def, Ideal.maximumf_def, Ideal.hostNegf_def, Ideal.negf_def, Ideal.hostAbsf_def,
    Ideal.absf_def, Ideal.hostUnary_exp_def, Ideal.hostUnary_log1p_def, Ideal.ofBits_def, Ideal.ofBits_zero_f32, sub_zero]
  rfl

/-- log 2 minus the softplus of the negated entry is the entry's divergence. -/
theorem jsd_v49 (x1 : (⟨S50000x256, .f32⟩ : BufTy).Contents (Elt Ideal)) (x2 : (⟨S512x256, .f32⟩ : BufTy).Contents (Elt Ideal)) (x5 : (⟨S50000, .i32⟩ : BufTy).Contents (Elt Ideal)) (i : S50000x512.Idx) :
    val_main_v49 (F := Ideal) x1 x2 x5 i = Cert.Gcl.jsd (val_main_v29 (F := Ideal) x1 x2 x5 i) := by
  simp only [val_main_v49_apply, val_main_v48_apply, val_main_cst_9_apply, val_main_v47_apply, val_main_call13_v4_apply,
    cmpf_une_self, select_zero, val_main_call13_v11_apply, val_main_call13_v1_apply, val_main_call13_v0_apply, val_main_call13_cst_apply,
    val_main_call13_v10_apply, val_main_call13_v9_apply, val_main_call13_v8_apply, val_main_call13_v7_apply, val_main_call13_v3_apply,
    val_main_call13_v2_apply, val_main_v46_apply]
  generalize val_main_v29 (F := Ideal) x1 x2 x5 i = s
  simp only [Ideal.subf_def, Ideal.addf_def, Ideal.maximumf_def, Ideal.hostNegf_def, Ideal.negf_def, Ideal.hostAbsf_def,
    Ideal.absf_def, Ideal.hostUnary_exp_def, Ideal.hostUnary_log1p_def, Ideal.ofBits_def, Ideal.ofBits_zero_f32, sub_zero]
  rfl

/-- A row's sum of divergences of the masked similarities is the one-hot pick of the labelled column. -/
theorem row_v34 (x0 : (⟨S50000x256, .f32⟩ : BufTy).Contents (Elt Ideal)) (x2 : (⟨S512x256, .f32⟩ : BufTy).Contents (Elt Ideal)) (x4 : (⟨S50000, .i32⟩ : BufTy).Contents (Elt Ideal)) (n : Fin 50000) :
    val_main_v34 (F := Ideal) x0 x2 x4 (ix1 n)
      = Cert.Gcl.pickOneHot (x4 (ix1 n))
          (Cert.Gcl.simsN (fun k => x0 (ix2 n k)) (fun j => Cert.Gcl.unit (fun k => x2 (ix2 j k)))) := by
  rw [val_main_v34_apply, val_main_cst_4_apply, Ideal.ofBits_def, Ideal.ofBits_zero_f32, zero_add]
  unfold Cert.Gcl.pickOneHot
  refine Finset.sum_congr rfl fun j _ => ?_
  have hi : idx_main_v34 (ix1 n) j = ix2 n j :=
    funext fun a => Fin.ext (by match a with | ⟨0, _⟩ => rfl | ⟨1, _⟩ => rfl)
  rw [hi, jsd_v33, val_main_v20_apply, Ideal.mulf_def, sims_v19, onehot_x4]

/-- A row's sum of divergences of the masked similarities is the one-hot pick of the labelled column. -/
theorem row_v39 (x0 : (⟨S50000x256, .f32⟩ : BufTy).Contents (Elt Ideal)) (x3 : (⟨S512x256, .f32⟩ : BufTy).Contents (Elt Ideal)) (x4 : (⟨S50000, .i32⟩ : BufTy).Contents (Elt Ideal)) (n : Fin 50000) :
    val_main_v39 (F := Ideal) x0 x3 x4 (ix1 n)
      = Cert.Gcl.pickOneHot (x4 (ix1 n))
          (Cert.Gcl.simsN (fun k => x0 (ix2 n k)) (fun j => Cert.Gcl.unit (fun k => x3 (ix2 j k)))) := by
  rw [val_main_v39_apply, val_main_cst_6_apply, Ideal.ofBits_def, Ideal.ofBits_zero_f32, zero_add]
  unfold Cert.Gcl.pickOneHot
  refine Finset.sum_congr rfl fun j _ => ?_
  have hi : idx_main_v39 (ix1 n) j = ix2 n j :=
    funext fun a => Fin.ext (by match a with | ⟨0, _⟩ => rfl | ⟨1, _⟩ => rfl)
  rw [hi, jsd_v38, val_main_v26_apply, Ideal.mulf_def, sims_v25, onehot_x4]

/-- A row's sum of divergences of the masked similarities is the one-hot pick of the labelled column. -/
theorem row_v45 (x1 : (⟨S50000x256, .f32⟩ : BufTy).Contents (Elt Ideal)) (x3 : (⟨S512x256, .f32⟩ : BufTy).Contents (Elt Ideal)) (x5 : (⟨S50000, .i32⟩ : BufTy).Contents (Elt Ideal)) (n : Fin 50000) :
    val_main_v45 (F := Ideal) x1 x3 x5 (ix1 n)
      = Cert.Gcl.pickOneHot (x5 (ix1 n))
          (Cert.Gcl.simsN (fun k => x1 (ix2 n k)) (fun j => Cert.Gcl.unit (fun k => x3 (ix2 j k)))) := by
  rw [val_main_v45_apply, val_main_cst_8_apply, Ideal.ofBits_def, Ideal.ofBits_zero_f32, zero_add]
  unfold Cert.Gcl.pickOneHot
  refine Finset.sum_congr rfl fun j _ => ?_
  have hi : idx_main_v45 (ix1 n) j = ix2 n j :=
    funext fun a => Fin.ext (by match a with | ⟨0, _⟩ => rfl | ⟨1, _⟩ => rfl)
  rw [hi, jsd_v44, val_main_v23_apply, Ideal.mulf_def, sims_v22, onehot_x5]

/-- A row's sum of divergences of the masked similarities is the one-hot pick of the labelled column. -/
theorem row_v50 (x1 : (⟨S50000x256, .f32⟩ : BufTy).Contents (Elt Ideal)) (x2 : (⟨S512x256, .f32⟩ : BufTy).Contents (Elt Ideal)) (x5 : (⟨S50000, .i32⟩ : BufTy).Contents (Elt Ideal)) (n : Fin 50000) :
    val_main_v50 (F := Ideal) x1 x2 x5 (ix1 n)
      = Cert.Gcl.pickOneHot (x5 (ix1 n))
          (Cert.Gcl.simsN (fun k => x1 (ix2 n k)) (fun j => Cert.Gcl.unit (fun k => x2 (ix2 j k)))) := by
  rw [val_main_v50_apply, val_main_cst_10_apply, Ideal.ofBits_def, Ideal.ofBits_zero_f32, zero_add]
  unfold Cert.Gcl.pickOneHot
  refine Finset.sum_congr rfl fun j _ => ?_
  have hi : idx_main_v50 (ix1 n) j = ix2 n j :=
    funext fun a => Fin.ext (by match a with | ⟨0, _⟩ => rfl | ⟨1, _⟩ => rfl)
  rw [hi, jsd_v49, val_main_v29_apply, Ideal.mulf_def, sims_v28, onehot_x5]

/-- The difference of the two row sums is the node's one-hot divergence difference. -/
theorem node_v40 (x0 : (⟨S50000x256, .f32⟩ : BufTy).Contents (Elt Ideal)) (x2 x3 : (⟨S512x256, .f32⟩ : BufTy).Contents (Elt Ideal)) (x4 : (⟨S50000, .i32⟩ : BufTy).Contents (Elt Ideal)) (n : Fin 50000) :
    val_main_v40 (F := Ideal) x0 x2 x3 x4 (ix1 n)
      = Cert.Gcl.nodeOneHot (fun k => x0 (ix2 n k)) (x4 (ix1 n))
          (fun j => Cert.Gcl.unit (fun k => x2 (ix2 j k))) (fun j => Cert.Gcl.unit (fun k => x3 (ix2 j k))) := by
  rw [val_main_v40_apply, Ideal.subf_def, row_v34, row_v39]
  rfl

/-- The difference of the two row sums is the node's one-hot divergence difference. -/
theorem node_v51 (x1 : (⟨S50000x256, .f32⟩ : BufTy).Contents (Elt Ideal)) (x2 x3 : (⟨S512x256, .f32⟩ : BufTy).Contents (Elt Ideal)) (x5 : (⟨S50000, .i32⟩ : BufTy).Contents (Elt Ideal)) (n : Fin 50000) :
    val_main_v51 (F := Ideal) x1 x2 x3 x5 (ix1 n)
      = Cert.Gcl.nodeOneHot (fun k => x1 (ix2 n k)) (x5 (ix1 n))
          (fun j => Cert.Gcl.unit (fun k => x3 (ix2 j k))) (fun j => Cert.Gcl.unit (fun k => x2 (ix2 j k))) := by
  rw [val_main_v51_apply, Ideal.subf_def, row_v45, row_v50]
  rfl

/-- The square root of the sum over all nodes of the squared differences is the view's norm. -/
theorem view_v54 (x0 : (⟨S50000x256, .f32⟩ : BufTy).Contents (Elt Ideal)) (x2 x3 : (⟨S512x256, .f32⟩ : BufTy).Contents (Elt Ideal)) (x4 : (⟨S50000, .i32⟩ : BufTy).Contents (Elt Ideal)) (i : S_.Idx) :
    val_main_v54 (F := Ideal) x0 x2 x3 x4 i
      = Ideal.sqrt (Cert.Gcl.sumsqOneHot (fun n k => x0 (ix2 n k)) (fun n => x4 (ix1 n))
          (fun j => Cert.Gcl.unit (fun k => x2 (ix2 j k))) (fun j => Cert.Gcl.unit (fun k => x3 (ix2 j k)))) := by
  rw [val_main_v54_apply, Ideal.hostUnary_sqrt_def, val_main_v53_apply, val_main_cst_11_apply, Ideal.ofBits_def,
    Ideal.ofBits_zero_f32, zero_add, Cert.LibRank1.sum_idx1]
  unfold Cert.Gcl.sumsqOneHot
  refine congrArg Ideal.sqrt (Finset.sum_congr rfl fun n _ => ?_)
  rw [val_main_v52_apply, Ideal.mulf_def, node_v40]

/-- The square root of the sum over all nodes of the squared differences is the view's norm. -/
theorem view_v57 (x1 : (⟨S50000x256, .f32⟩ : BufTy).Contents (Elt Ideal)) (x2 x3 : (⟨S512x256, .f32⟩ : BufTy).Contents (Elt Ideal)) (x5 : (⟨S50000, .i32⟩ : BufTy).Contents (Elt Ideal)) (i : S_.Idx) :
    val_main_v57 (F := Ideal) x1 x2 x3 x5 i
      = Ideal.sqrt (Cert.Gcl.sumsqOneHot (fun n k => x1 (ix2 n k)) (fun n => x5 (ix1 n))
          (fun j => Cert.Gcl.unit (fun k => x3 (ix2 j k))) (fun j => Cert.Gcl.unit (fun k => x2 (ix2 j k)))) := by
  rw [val_main_v57_apply, Ideal.hostUnary_sqrt_def, val_main_v56_apply, val_main_cst_12_apply, Ideal.ofBits_def,
    Ideal.ofBits_zero_f32, zero_add, Cert.LibRank1.sum_idx1]
  unfold Cert.Gcl.sumsqOneHot
  refine congrArg Ideal.sqrt (Finset.sum_congr rfl fun n _ => ?_)
  rw [val_main_v55_apply, Ideal.mulf_def, node_v51]

/-- The reference's result, as a function of its six arguments, is the one-hot form of the loss. -/
theorem ref_eq (x0 x1 : (⟨S50000x256, .f32⟩ : BufTy).Contents (Elt Ideal)) (x2 x3 : (⟨S512x256, .f32⟩ : BufTy).Contents (Elt Ideal))
    (x4 x5 : (⟨S50000, .i32⟩ : BufTy).Contents (Elt Ideal)) :
    val_main_v58 (F := Ideal) x0 x1 x2 x3 x4 x5
      = fun _ => Cert.Gcl.lossOneHot (fun n k => x0 (ix2 n k)) (fun n k => x1 (ix2 n k)) (fun j k => x2 (ix2 j k)) (fun j k => x3 (ix2 j k))
          (fun n => x4 (ix1 n)) (fun n => x5 (ix1 n)) := by
  funext i
  rw [val_main_v58_apply, Ideal.addf_def, view_v54, view_v57]
  rfl

end Cert.ReferenceIdeal.RefValue

end
-- ==== Proof.lean ====
/-
  The kernel and its reference compute one function on the extended reals: a graph-contrastive loss.

  For node embeddings z (50000 rows of 256), graph embeddings g (512 rows of 256) and a label b_n in each node,
  every row is scaled to unit length (divided by max(1e-12, |row|)), the cosine similarity s(n, j) of node n with
  graph j is the dot product of the unit rows, jsd(s) = log 2 - softplus(-s), and a node's divergence difference is
  jsd of its similarity to its own graph in its own view minus the same in the other view; the loss is the
  Euclidean norm of that difference over all nodes, summed over the two views.

  The reference multiplies each similarity row by the label's one-hot row and sums jsd over all 512 columns; the
  511 unlabelled columns add the same real constant jsd(0) to both sums of a node, so the difference keeps only the
  labelled column (Algebra.lean). The kernel selects the labelled column by comparing the column number with the
  label, works on 196 tiles of 256 rows of the arrays padded with zero rows and zero labels (a zero row has
  similarity 0 to every graph in both views, so its difference is 0: the padding adds nothing), accumulates each
  tile's sum of squares in two scratch cells carried across the grid (zeroed at the first point, copied to the two
  outputs at the last), and the host takes the two square roots and adds them. A label outside [0, 512) selects no
  column on either side. No step needs the inputs to be finite: sums are only re-associated, and the one
  cancellation is of a real constant.

  Spec.lean states the loss over coordinates; RefValue.lean reads the reference's run as the one-hot form of it;
  Pieces, KernelAcc and KernelRun read the kernel's run (running sums by induction over the grid points, the last
  point's write-back, the host lines after the region) for any float instance; SimBlocks, TileSums and HostArrays
  read one tile's payload and the arrays the region finds; KernelValue puts them together at the extended reals.
-/
import proofs.«163930_j49959059587771_1_alg».proof.Defs
import proofs.«163930_j49959059587771_1_alg».proof.Proof.Gen.Kernel
import proofs.«163930_j49959059587771_1_alg».proof.Proof.Gen.Kernel.Skeleton
import proofs.«163930_j49959059587771_1_alg».proof.Proof.Gen.Kernel.Launch
import proofs.«163930_j49959059587771_1_alg».proof.Proof.Gen.Kernel.Points
import proofs.«163930_j49959059587771_1_alg».proof.Proof.Gen.Kernel.Frame
import proofs.«163930_j49959059587771_1_alg».proof.Proof.Gen.KernelIdeal
import proofs.«163930_j49959059587771_1_alg».proof.Proof.Gen.KernelIdeal.Skeleton
import proofs.«163930_j49959059587771_1_alg».proof.Proof.Gen.KernelIdeal.Launch
import proofs.«163930_j49959059587771_1_alg».proof.Proof.Gen.KernelIdeal.Points
import proofs.«163930_j49959059587771_1_alg».proof.Proof.Gen.KernelIdeal.Frame
import proofs.«163930_j49959059587771_1_alg».proof.Proof.Gen.ReferenceIdeal
import proofs.«163930_j49959059587771_1_alg».proof.Proof.Gen.Pre_finite_inputs
import proofs.«163930_j49959059587771_1_alg».proof.Proof.Gen.ReferenceIdeal.Run
import proofs.«163930_j49959059587771_1_alg».proof.Proof.Gen.ReferenceIdeal.Read
import proofs.«163930_j49959059587771_1_alg».proof.Proof.KernelValue
import proofs.«163930_j49959059587771_1_alg».proof.Proof.RefValue
import proofs.«163930_j49959059587771_1_alg».proof.Proof.Algebra
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ
/-- So does the kernel read at the extended reals. -/
theorem frame_ki : Cert.frame_KernelIdeal := fun m ρ _ => Cert.KernelIdeal.Gen.frame m ρ
/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Both programs end at the loss of the (agreeing) arguments. -/
theorem algebraic : Cert.algebraic_KernelIdeal_ReferenceIdeal := by
  intro m ρ m' ρ' _ hagree
  refine ⟨fun c _ => Cert.Gcl.loss (Cert.KernelIdeal.Acc.Z1 m c) (Cert.KernelIdeal.Acc.Z2 m c) (Cert.KernelIdeal.Acc.G1 m c)
    (Cert.KernelIdeal.Acc.G2 m c) (Cert.KernelIdeal.Acc.B1 m c) (Cert.KernelIdeal.Acc.B2 m c), ?_, ?_⟩
  · exact (θ_run Cert.KernelIdeal.defs _ _).mono
      (fun _ h c => ⟨(h c).1.trans (Cert.KernelIdeal.Acc.value m c), (h c).2⟩) (Cert.KernelIdeal.Acc.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v58_eq, Cert.ReferenceIdeal.RefValue.ref_eq, (hagree c).1, (hagree c).2.1,
      (hagree c).2.2.1, (hagree c).2.2.2.1, (hagree c).2.2.2.2.1, (hagree c).2.2.2.2.2]
    funext _
    exact Cert.Gcl.lossOneHot_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
